-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S167772 : Shape := ⟨1, ![167772]⟩
abbrev S4097 : Shape := ⟨1, ![4097]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S167772 : S_.BroadcastsInDim S167772 (![] : Fin 0 → Fin S167772.rank)
  reducesTo_S167772_S_d0 : S167772.ReducesTo [0] S_

variable [Facts]

def fn {F : FTy → Type} [FloatOps F] (main_arg0 : FVec F S4x2048x4096 .f32) (main_arg1 : FVec F S167772 .f32) (main_arg2 : IVec S4097 32) (main_arg3 : IVec S167772 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S167772 .f32 := Host.absf main_arg1
  let main_cst_0 : FVec F S_ .f32 := constant S_ .f32 0x7F800000#32
  let main_v5 : FVec F S167772 .f32 := broadcastInDim S167772 ![] bcast_S_S167772 main_cst_0
  let main_v6 : IVec S167772 1 := cmpf .olt main_v4 main_v5
  let main_c_1 : IVec S_ 1 := constantI S_ 1 1#1
  let main_v7 : IVec S_ 1 := (fun x v => Host.reduce IntOp.andi x v reducesTo_S167772_S_d0 h_S_) main_v6 main_c_1
  let main_v8 : IVec S_ 1 := andi main_v3 main_v7
  main_v8
-- ==== Kernel.lean ====
abbrev S4x2048x4096 : Shape := ⟨3, ![4, 2048, 4096]⟩
abbrev S167772 : Shape := ⟨1, ![167772]⟩
abbrev S4097 : Shape := ⟨1, ![4097]⟩
abbrev S4096 : Shape := ⟨1, ![4096]⟩
abbrev S1 : Shape := ⟨1, ![1]⟩
abbrev S4095 : Shape := ⟨1, ![4095]⟩
abbrev S_ : Shape := ⟨0, ![]⟩
abbrev S4096x1 : Shape := ⟨2, ![4096, 1]⟩
abbrev S167772x1 : Shape := ⟨2, ![167772, 1]⟩
abbrev S1x1 : Shape := ⟨2, ![1, 1]⟩
abbrev S4096x4096 : Shape := ⟨2, ![4096, 4096]⟩
abbrev S167772x2 : Shape := ⟨2, ![167772, 2]⟩
abbrev S8192x4096 : Shape := ⟨2, ![8192, 4096]⟩
abbrev S1024x1024 : Shape := ⟨2, ![1024, 1024]⟩

abbrev nBuf : Space → Nat
  | .hbm => 84
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S167772, .f32⟩
  | .hbm, ⟨2, _⟩ => ⟨S4097, .i32⟩
  | .hbm, ⟨3, _⟩ => ⟨S167772, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1, .i32⟩
  | .hbm, ⟨9, _⟩ => ⟨S4095, .i32⟩
  | .hbm, ⟨10, _⟩ => ⟨S4096, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S_, .i32⟩
  | .hbm, ⟨19, _⟩ => ⟨S167772, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S_, .i32⟩
  | .hbm, ⟨29, _⟩ => ⟨S4096, .i32⟩
  | .hbm, ⟨30, _⟩ => ⟨S167772, .i32⟩
  | .hbm, ⟨31, _⟩ => ⟨S_, .i32⟩
  | .hbm, ⟨32, _⟩ => ⟨S_, .i32⟩
  | .hbm, ⟨33, _⟩ => ⟨S167772, .i32⟩
  | .hbm, ⟨34, _⟩ => ⟨S_, .i32⟩
  | .hbm, ⟨35, _⟩ => ⟨S167772, .i32⟩
  | .hbm, ⟨36, _⟩ => ⟨S167772, .i32⟩
  | .hbm, ⟨37, _⟩ => ⟨S_, .i32⟩
  | .hbm, ⟨38, _⟩ => ⟨S167772, .i32⟩
  | .hbm, ⟨39, _⟩ => ⟨S167772, .i1⟩
  | .hbm, ⟨40, _⟩ => ⟨S_, .i32⟩
  | .hbm, ⟨41, _⟩ => ⟨S167772, .i32⟩
  | .hbm, ⟨42, _⟩ => ⟨S167772, .i32⟩
  | .hbm, ⟨43, _⟩ => ⟨S167772, .i32⟩
  | .hbm, ⟨44, _⟩ => ⟨S167772x1, .i32⟩
  | .hbm, ⟨45, _⟩ => ⟨S1, .i32⟩
  | .hbm, ⟨46, _⟩ => ⟨S_, .i32⟩
  | .hbm, ⟨47, _⟩ => ⟨S167772x1, .i32⟩
  | .hbm, ⟨48, _⟩ => ⟨S167772x1, .i1⟩
  | .hbm, ⟨49, _⟩ => ⟨S1x1, .i32⟩
  | .hbm, ⟨50, _⟩ => ⟨S167772x1, .i32⟩
  | .hbm, ⟨51, _⟩ => ⟨S167772x1, .i1⟩
  | .hbm, ⟨52, _⟩ => ⟨S167772x1, .i1⟩
  | .hbm, ⟨53, _⟩ => ⟨S_, .i1⟩
  | .hbm, ⟨54, _⟩ => ⟨S167772, .i1⟩
  | .hbm, ⟨55, _⟩ => ⟨S167772, .i32⟩
  | .hbm, ⟨56, _⟩ => ⟨S_, .i32⟩
  | .hbm, ⟨57, _⟩ => ⟨S167772, .i32⟩
  | .hbm, ⟨58, _⟩ => ⟨S167772, .i32⟩
  | .hbm, ⟨59, _⟩ => ⟨S_, .f32⟩
  | .hbm, ⟨60, _⟩ => ⟨S4096x4096, .f32⟩
  | .hbm, ⟨61, _⟩ => ⟨S_, .i32⟩
  | .hbm, ⟨62, _⟩ => ⟨S167772, .i32⟩
  | .hbm, ⟨63, _⟩ => ⟨S167772, .i1⟩
  | .hbm, ⟨64, _⟩ => ⟨S_, .i32⟩
  | .hbm, ⟨65, _⟩ => ⟨S167772, .i32⟩
  | .hbm, ⟨66, _⟩ => ⟨S167772, .i32⟩
  | .hbm, ⟨67, _⟩ => ⟨S167772, .i32⟩
  | .hbm, ⟨68, _⟩ => ⟨S_, .i32⟩
  | .hbm, ⟨69, _⟩ => ⟨S167772, .i32⟩
  | .hbm, ⟨70, _⟩ => ⟨S167772, .i1⟩
  | .hbm, ⟨71, _⟩ => ⟨S_, .i32⟩
  | .hbm, ⟨72, _⟩ => ⟨S167772, .i32⟩
  | .hbm, ⟨73, _⟩ => ⟨S167772, .i32⟩
  | .hbm, ⟨74, _⟩ => ⟨S167772, .i32⟩
  | .hbm, ⟨75, _⟩ => ⟨S167772x1, .i32⟩
  | .hbm, ⟨76, _⟩ => ⟨S167772x1, .i32⟩
  | .hbm, ⟨77, _⟩ => ⟨S167772x2, .i32⟩
  | .hbm, ⟨78, _⟩ => ⟨S4096x4096, .f32⟩
  | .hbm, ⟨79, _⟩ => ⟨S4096x4096, .f32⟩
  | .hbm, ⟨80, _⟩ => ⟨S4096x4096, .bf16⟩
  | .hbm, ⟨81, _⟩ => ⟨S8192x4096, .f32⟩
  | .hbm, ⟨82, _⟩ => ⟨S8192x4096, .f32⟩
  | .hbm, ⟨83, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_call2_call0_c : Ref sig .tc := ⟨.hbm, 15, rfl⟩
abbrev main_call2_call0_v0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_call3_call0_c : Ref sig .tc := ⟨.hbm, 31, rfl⟩
abbrev main_call3_call0_v0 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_call4_c : Ref sig .tc := ⟨.hbm, 37, rfl⟩
abbrev main_call4_v0 : Ref sig .tc := ⟨.hbm, 38, rfl⟩
abbrev main_call4_v1 : Ref sig .tc := ⟨.hbm, 39, rfl⟩
abbrev main_call4_c_0 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_c_1 : Ref sig .tc := ⟨.hbm, 45, rfl⟩
abbrev main_call4_c_2 : Ref sig .tc := ⟨.hbm, 46, rfl⟩
abbrev main_call4_v6 : Ref sig .tc := ⟨.hbm, 47, rfl⟩
abbrev main_call4_v7 : Ref sig .tc := ⟨.hbm, 48, rfl⟩
abbrev main_call4_v8 : Ref sig .tc := ⟨.hbm, 49, rfl⟩
abbrev main_call4_v9 : Ref sig .tc := ⟨.hbm, 50, rfl⟩
abbrev main_call4_v10 : Ref sig .tc := ⟨.hbm, 51, rfl⟩
abbrev main_call4_v11 : Ref sig .tc := ⟨.hbm, 52, rfl⟩
abbrev main_call4_c_3 : Ref sig .tc := ⟨.hbm, 53, rfl⟩
abbrev main_call4_v12 : Ref sig .tc := ⟨.hbm, 54, rfl⟩
abbrev main_call4_v13 : Ref sig .tc := ⟨.hbm, 55, rfl⟩
abbrev main_call4_c_4 : Ref sig .tc := ⟨.hbm, 56, rfl⟩
abbrev main_call4_v14 : Ref sig .tc := ⟨.hbm, 57, rfl⟩
abbrev main_v18 : Ref sig .tc := ⟨.hbm, 58, rfl⟩
abbrev main_cst : Ref sig .tc := ⟨.hbm, 59, rfl⟩
abbrev main_v19 : Ref sig .tc := ⟨.hbm, 60, rfl⟩
abbrev main_c_6 : Ref sig .tc := ⟨.hbm, 61, rfl⟩
abbrev main_v20 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_8 : Ref sig .tc := ⟨.hbm, 68, rfl⟩
abbrev main_v25 : Ref sig .tc := ⟨.hbm, 69, rfl⟩
abbrev main_v26 : Ref sig .tc := ⟨.hbm, 70, rfl⟩
abbrev main_c_9 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S4097_S4096_1 : S4097.Slices ![1] S4096
  slices_S4097_S4096_0 : S4097.Slices ![0] S4096
  slices_S4096_S1_4095 : S4096.Slices ![4095] S1
  slices_S4096_S4095_0 : S4096.Slices ![0] S4095
  concatenates_S1_S4095_S4096_d0 : Shape.Concatenates [S1, S4095] S4096 0
  bcast_S_S1 : S_.BroadcastsInDim S1 (![] : Fin 0 → Fin S1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S167772 : S_.BroadcastsInDim S167772 (![] : Fin 0 → Fin S167772.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S167772_S167772_w167772s1p167771_0 : S167772.ReduceWindows (![167772] : Fin 1 → Nat) ![1] ![167771] ![0] S167772
  bcast_S167772_S167772x1_0 : S167772.BroadcastsInDim S167772x1 (![0] : Fin 1 → Fin S167772x1.rank)
  bcast_S_S167772x1 : S_.BroadcastsInDim S167772x1 (![] : Fin 0 → Fin S167772x1.rank)
  bcast_S1_S1x1_1 : S1.BroadcastsInDim S1x1 (![1] : Fin 1 → Fin S1x1.rank)
  bcast_S1x1_S167772x1_0_1 : S1x1.BroadcastsInDim S167772x1 (![0, 1] : Fin 2 → Fin S167772x1.rank)
  reducesTo_S167772x1_S167772_d1 : S167772x1.ReducesTo [1] S167772
  bcast_S_S4096x4096 : S_.BroadcastsInDim S4096x4096 (![] : Fin 0 → Fin S4096x4096.rank)
  concatenates_S167772x1_S167772x1_S167772x2_d1 : Shape.Concatenates [S167772x1, S167772x1] S167772x2 1
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  scatter_S4096_S1_S__n_0_0_0_wf : ScatterDims.WF S4096 S1 S_ [] [0] [0] 0
  scatter_S167772_S4096x1_S4096_n_0_0_1_wf : ScatterDims.WF S167772 S4096x1 S4096 [] [0] [0] 1
  gather_S4096_S167772x1_S167772_n_0_n_n_0_1_1_wf : GatherDims.WF S4096 S167772x1 S167772 [] [0] [] [0] [] 1 ![1]
  scatter_S4096x4096_S167772x2_S167772_n_01_01_1_wf : ScatterDims.WF S4096x4096 S167772x2 S167772 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S167772_S4096x1_S4096_n_0_0_1 : ScatterDims S167772 S4096x1 S4096 where
  updateWindowDims := []
  insertedWindowDims := [0]
  scatterDimsToOperandDims := [0]
  indexVectorDim := 1
  wf := scatter_S167772_S4096x1_S4096_n_0_0_1_wf
def gather_S4096_S167772x1_S167772_n_0_n_n_0_1_1 : GatherDims S4096 S167772x1 S167772 where
  offsetDims := []
  collapsedSliceDims := [0]
  operandBatchingDims := []
  startIndicesBatchingDims := []
  startIndexMap := [0]
  indexVectorDim := 1
  sliceSizes := ![1]
  wf := gather_S4096_S167772x1_S167772_n_0_n_n_0_1_1_wf
def scatter_S4096x4096_S167772x2_S167772_n_01_01_1 : ScatterDims S4096x4096 S167772x2 S167772 where
  updateWindowDims := []
  insertedWindowDims := [0, 1]
  scatterDimsToOperandDims := [0, 1]
  indexVectorDim := 1
  wf := scatter_S4096x4096_S167772x2_S167772_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v36) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S167772 : Shape := ⟨1, ![167772]⟩
abbrev S4097 : Shape := ⟨1, ![4097]⟩
abbrev S4096 : Shape := ⟨1, ![4096]⟩
abbrev S1 : Shape := ⟨1, ![1]⟩
abbrev S4095 : Shape := ⟨1, ![4095]⟩
abbrev S_ : Shape := ⟨0, ![]⟩
abbrev S4096x1 : Shape := ⟨2, ![4096, 1]⟩
abbrev S167772x1 : Shape := ⟨2, ![167772, 1]⟩
abbrev S1x1 : Shape := ⟨2, ![1, 1]⟩
abbrev S4096x4096 : Shape := ⟨2, ![4096, 4096]⟩
abbrev S167772x2 : Shape := ⟨2, ![167772, 2]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S167772, .f32⟩
  | .hbm, ⟨2, _⟩ => ⟨S4097, .i32⟩
  | .hbm, ⟨3, _⟩ => ⟨S167772, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1, .i32⟩
  | .hbm, ⟨9, _⟩ => ⟨S4095, .i32⟩
  | .hbm, ⟨10, _⟩ => ⟨S4096, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S_, .i32⟩
  | .hbm, ⟨19, _⟩ => ⟨S167772, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S_, .i32⟩
  | .hbm, ⟨29, _⟩ => ⟨S4096, .i32⟩
  | .hbm, ⟨30, _⟩ => ⟨S167772, .i32⟩
  | .hbm, ⟨31, _⟩ => ⟨S_, .i32⟩
  | .hbm, ⟨32, _⟩ => ⟨S_, .i32⟩
  | .hbm, ⟨33, _⟩ => ⟨S167772, .i32⟩
  | .hbm, ⟨34, _⟩ => ⟨S_, .i32⟩
  | .hbm, ⟨35, _⟩ => ⟨S167772, .i32⟩
  | .hbm, ⟨36, _⟩ => ⟨S167772, .i32⟩
  | .hbm, ⟨37, _⟩ => ⟨S_, .i32⟩
  | .hbm, ⟨38, _⟩ => ⟨S167772, .i32⟩
  | .hbm, ⟨39, _⟩ => ⟨S167772, .i1⟩
  | .hbm, ⟨40, _⟩ => ⟨S_, .i32⟩
  | .hbm, ⟨41, _⟩ => ⟨S167772, .i32⟩
  | .hbm, ⟨42, _⟩ => ⟨S167772, .i32⟩
  | .hbm, ⟨43, _⟩ => ⟨S167772, .i32⟩
  | .hbm, ⟨44, _⟩ => ⟨S167772x1, .i32⟩
  | .hbm, ⟨45, _⟩ => ⟨S1, .i32⟩
  | .hbm, ⟨46, _⟩ => ⟨S_, .i32⟩
  | .hbm, ⟨47, _⟩ => ⟨S167772x1, .i32⟩
  | .hbm, ⟨48, _⟩ => ⟨S167772x1, .i1⟩
  | .hbm, ⟨49, _⟩ => ⟨S1x1, .i32⟩
  | .hbm, ⟨50, _⟩ => ⟨S167772x1, .i32⟩
  | .hbm, ⟨51, _⟩ => ⟨S167772x1, .i1⟩
  | .hbm, ⟨52, _⟩ => ⟨S167772x1, .i1⟩
  | .hbm, ⟨53, _⟩ => ⟨S_, .i1⟩
  | .hbm, ⟨54, _⟩ => ⟨S167772, .i1⟩
  | .hbm, ⟨55, _⟩ => ⟨S167772, .i32⟩
  | .hbm, ⟨56, _⟩ => ⟨S_, .i32⟩
  | .hbm, ⟨57, _⟩ => ⟨S167772, .i32⟩
  | .hbm, ⟨58, _⟩ => ⟨S167772, .i32⟩
  | .hbm, ⟨59, _⟩ => ⟨S_, .f32⟩
  | .hbm, ⟨60, _⟩ => ⟨S4096x4096, .f32⟩
  | .hbm, ⟨61, _⟩ => ⟨S_, .i32⟩
  | .hbm, ⟨62, _⟩ => ⟨S167772, .i32⟩
  | .hbm, ⟨63, _⟩ => ⟨S167772, .i1⟩
  | .hbm, ⟨64, _⟩ => ⟨S_, .i32⟩
  | .hbm, ⟨65, _⟩ => ⟨S167772, .i32⟩
  | .hbm, ⟨66, _⟩ => ⟨S167772, .i32⟩
  | .hbm, ⟨67, _⟩ => ⟨S167772, .i32⟩
  | .hbm, ⟨68, _⟩ => ⟨S_, .i32⟩
  | .hbm, ⟨69, _⟩ => ⟨S167772, .i32⟩
  | .hbm, ⟨70, _⟩ => ⟨S167772, .i1⟩
  | .hbm, ⟨71, _⟩ => ⟨S_, .i32⟩
  | .hbm, ⟨72, _⟩ => ⟨S167772, .i32⟩
  | .hbm, ⟨73, _⟩ => ⟨S167772, .i32⟩
  | .hbm, ⟨74, _⟩ => ⟨S167772, .i32⟩
  | .hbm, ⟨75, _⟩ => ⟨S167772x1, .i32⟩
  | .hbm, ⟨76, _⟩ => ⟨S167772x1, .i32⟩
  | .hbm, ⟨77, _⟩ => ⟨S167772x2, .i32⟩
  | .hbm, ⟨78, _⟩ => ⟨S4096x4096, .f32⟩
  | .hbm, ⟨79, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_call2_call0_c : Ref sig .tc := ⟨.hbm, 15, rfl⟩
abbrev main_call2_call0_v0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_call3_call0_c : Ref sig .tc := ⟨.hbm, 31, rfl⟩
abbrev main_call3_call0_v0 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_call4_c : Ref sig .tc := ⟨.hbm, 37, rfl⟩
abbrev main_call4_v0 : Ref sig .tc := ⟨.hbm, 38, rfl⟩
abbrev main_call4_v1 : Ref sig .tc := ⟨.hbm, 39, rfl⟩
abbrev main_call4_c_0 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_c_1 : Ref sig .tc := ⟨.hbm, 45, rfl⟩
abbrev main_call4_c_2 : Ref sig .tc := ⟨.hbm, 46, rfl⟩
abbrev main_call4_v6 : Ref sig .tc := ⟨.hbm, 47, rfl⟩
abbrev main_call4_v7 : Ref sig .tc := ⟨.hbm, 48, rfl⟩
abbrev main_call4_v8 : Ref sig .tc := ⟨.hbm, 49, rfl⟩
abbrev main_call4_v9 : Ref sig .tc := ⟨.hbm, 50, rfl⟩
abbrev main_call4_v10 : Ref sig .tc := ⟨.hbm, 51, rfl⟩
abbrev main_call4_v11 : Ref sig .tc := ⟨.hbm, 52, rfl⟩
abbrev main_call4_c_3 : Ref sig .tc := ⟨.hbm, 53, rfl⟩
abbrev main_call4_v12 : Ref sig .tc := ⟨.hbm, 54, rfl⟩
abbrev main_call4_v13 : Ref sig .tc := ⟨.hbm, 55, rfl⟩
abbrev main_call4_c_4 : Ref sig .tc := ⟨.hbm, 56, rfl⟩
abbrev main_call4_v14 : Ref sig .tc := ⟨.hbm, 57, rfl⟩
abbrev main_v18 : Ref sig .tc := ⟨.hbm, 58, rfl⟩
abbrev main_cst : Ref sig .tc := ⟨.hbm, 59, rfl⟩
abbrev main_v19 : Ref sig .tc := ⟨.hbm, 60, rfl⟩
abbrev main_c_6 : Ref sig .tc := ⟨.hbm, 61, rfl⟩
abbrev main_v20 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_8 : Ref sig .tc := ⟨.hbm, 68, rfl⟩
abbrev main_v25 : Ref sig .tc := ⟨.hbm, 69, rfl⟩
abbrev main_v26 : Ref sig .tc := ⟨.hbm, 70, rfl⟩
abbrev main_c_9 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩

abbrev nD : Nat := 1
abbrev τ : Topo := Topo.v7x

variable {F : FTy → Type} [FloatOps F]

class Facts₀ : Prop where
  slices_S4097_S4096_1 : S4097.Slices ![1] S4096
  slices_S4097_S4096_0 : S4097.Slices ![0] S4096
  slices_S4096_S1_4095 : S4096.Slices ![4095] S1
  slices_S4096_S4095_0 : S4096.Slices ![0] S4095
  concatenates_S1_S4095_S4096_d0 : Shape.Concatenates [S1, S4095] S4096 0
  bcast_S_S1 : S_.BroadcastsInDim S1 (![] : Fin 0 → Fin S1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S167772 : S_.BroadcastsInDim S167772 (![] : Fin 0 → Fin S167772.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S167772_S167772_w167772s1p167771_0 : S167772.ReduceWindows (![167772] : Fin 1 → Nat) ![1] ![167771] ![0] S167772
  bcast_S167772_S167772x1_0 : S167772.BroadcastsInDim S167772x1 (![0] : Fin 1 → Fin S167772x1.rank)
  bcast_S_S167772x1 : S_.BroadcastsInDim S167772x1 (![] : Fin 0 → Fin S167772x1.rank)
  bcast_S1_S1x1_1 : S1.BroadcastsInDim S1x1 (![1] : Fin 1 → Fin S1x1.rank)
  bcast_S1x1_S167772x1_0_1 : S1x1.BroadcastsInDim S167772x1 (![0, 1] : Fin 2 → Fin S167772x1.rank)
  reducesTo_S167772x1_S167772_d1 : S167772x1.ReducesTo [1] S167772
  bcast_S_S4096x4096 : S_.BroadcastsInDim S4096x4096 (![] : Fin 0 → Fin S4096x4096.rank)
  concatenates_S167772x1_S167772x1_S167772x2_d1 : Shape.Concatenates [S167772x1, S167772x1] S167772x2 1
  scatter_S4096_S1_S__n_0_0_0_wf : ScatterDims.WF S4096 S1 S_ [] [0] [0] 0
  scatter_S167772_S4096x1_S4096_n_0_0_1_wf : ScatterDims.WF S167772 S4096x1 S4096 [] [0] [0] 1
  gather_S4096_S167772x1_S167772_n_0_n_n_0_1_1_wf : GatherDims.WF S4096 S167772x1 S167772 [] [0] [] [0] [] 1 ![1]
  scatter_S4096x4096_S167772x2_S167772_n_01_01_1_wf : ScatterDims.WF S4096x4096 S167772x2 S167772 [] [0, 1] [0, 1] 1
  dot_S4x2048x4096_S4096x4096_S4x2048x4096_2_1_01_0_n_n_wf : DotDims.WF S4x2048x4096 S4096x4096 S4x2048x4096 [2] [1] [0, 1] [0] [] []

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S167772_S4096x1_S4096_n_0_0_1 : ScatterDims S167772 S4096x1 S4096 where
  updateWindowDims := []
  insertedWindowDims := [0]
  scatterDimsToOperandDims := [0]
  indexVectorDim := 1
  wf := scatter_S167772_S4096x1_S4096_n_0_0_1_wf
def gather_S4096_S167772x1_S167772_n_0_n_n_0_1_1 : GatherDims S4096 S167772x1 S167772 where
  offsetDims := []
  collapsedSliceDims := [0]
  operandBatchingDims := []
  startIndicesBatchingDims := []
  startIndexMap := [0]
  indexVectorDim := 1
  sliceSizes := ![1]
  wf := gather_S4096_S167772x1_S167772_n_0_n_n_0_1_1_wf
def scatter_S4096x4096_S167772x2_S167772_n_01_01_1 : ScatterDims S4096x4096 S167772x2 S167772 where
  updateWindowDims := []
  insertedWindowDims := [0, 1]
  scatterDimsToOperandDims := [0, 1]
  indexVectorDim := 1
  wf := scatter_S4096x4096_S167772x2_S167772_n_01_01_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.RefOps.lean ====
import proofs.«117117_j56341380989458_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The 75 operations that build the dense weight from the CSR arrays, in program order, each call's body inline:
    the row lengths (differences of the offsets), the row id of every nonzero (a cumulative sum of marks at the row
    starts, read through a take), the wrapped row and column indices paired, and the scatter-add of the values. -/
abbrev opsW : List (HloOp τ sig (Elt F)) :=
  [ StableHlo.TRef.unary (.of main_arg2 : StableHlo.TRef sig ⟨S4097, .i32⟩) (.of main_call0_v0 : StableHlo.TRef sig ⟨S4096, .i32⟩) (extractStridedSlice S4096 ![1] · slices_S4097_S4096_1),
    StableHlo.TRef.unary (.of main_arg2 : StableHlo.TRef sig ⟨S4097, .i32⟩) (.of main_call0_v1 : StableHlo.TRef sig ⟨S4096, .i32⟩) (extractStridedSlice S4096 ![0] · slices_S4097_S4096_0),
    StableHlo.TRef.binary (.of main_call0_v0 : StableHlo.TRef sig ⟨S4096, .i32⟩) (.of main_call0_v1 : StableHlo.TRef sig ⟨S4096, .i32⟩) (.of main_v0 : StableHlo.TRef sig ⟨S4096, .i32⟩) subi,
    StableHlo.nullary main_v1 (iotaInDim S4096 32 0),
    StableHlo.TRef.unary (.of main_v0 : StableHlo.TRef sig ⟨S4096, .i32⟩) (.of main_call1_v0 : StableHlo.TRef sig ⟨S1, .i32⟩) (extractStridedSlice S1 ![4095] · slices_S4096_S1_4095),
    StableHlo.TRef.unary (.of main_v0 : StableHlo.TRef sig ⟨S4096, .i32⟩) (.of main_call1_v1 : StableHlo.TRef sig ⟨S4095, .i32⟩) (extractStridedSlice S4095 ![0] · slices_S4096_S4095_0),
    StableHlo.TRef.binary (.of main_call1_v0 : StableHlo.TRef sig ⟨S1, .i32⟩) (.of main_call1_v1 : StableHlo.TRef sig ⟨S4095, .i32⟩) (.of main_v2 : StableHlo.TRef sig ⟨S4096, .i32⟩) (fun a b => concatenate S4096 0 [⟨S1, a⟩, ⟨S4095, b⟩] concatenates_S1_S4095_S4096_d0),
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v2 main_v3 main_c_0 main_v4 ((fun x i u => Host.scatter scatter_S4096_S1_S__n_0_0_0 (fun _ b => b) x i u) : (⟨S4096, .i32⟩ : BufTy).Contents (Elt F) → (⟨S1, .i32⟩ : BufTy).Contents (Elt F) → (⟨S_, .i32⟩ : BufTy).Contents (Elt F) → (⟨S4096, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v4 : StableHlo.TRef sig ⟨S4096, .i32⟩) (.of main_call2_call0_v0 : StableHlo.TRef sig ⟨S_, .i32⟩) (.of main_v5 : StableHlo.TRef sig ⟨S4096, .i32⟩) (fun x v => Host.reduceWindow IntOp.addi ![4096] ![1] ![4095] ![0] x v reduceWindows_S4096_S4096_w4096s1p4095_0 h_S_),
    StableHlo.nullary main_c_1 (constantI S_ 32 0#32),
    StableHlo.unary main_c_1 main_v6 (broadcastInDim S167772 ![] bcast_S_S167772 : (⟨S_, .i32⟩ : BufTy).Contents (Elt F) → (⟨S167772, .i32⟩ : BufTy).Contents (Elt F)),
    StableHlo.nullary main_c_2 (constantI S_ 32 0#32),
    StableHlo.unary main_c_2 main_v7 (broadcastInDim S4096 ![] bcast_S_S4096 : (⟨S_, .i32⟩ : BufTy).Contents (Elt F) → (⟨S4096, .i32⟩ : BufTy).Contents (Elt F)),
    StableHlo.binary main_v5 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 167772#32),
    StableHlo.unary main_c_3 main_v9 (broadcastInDim S4096 ![] bcast_S_S4096 : (⟨S_, .i32⟩ : BufTy).Contents (Elt F) → (⟨S4096, .i32⟩ : BufTy).Contents (Elt F)),
    StableHlo.binary main_v5 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_v5 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v13 (broadcastInDim S4096 ![] bcast_S_S4096 : (⟨S_, .i32⟩ : BufTy).Contents (Elt F) → (⟨S4096, .i32⟩ : BufTy).Contents (Elt F)),
    StableHlo.ternary main_v6 main_v12 main_v13 main_v14 ((fun x i u => Host.scatter scatter_S167772_S4096x1_S4096_n_0_0_1 IntOp.addi x i u) : (⟨S167772, .i32⟩ : BufTy).Contents (Elt F) → (⟨S4096x1, .i32⟩ : BufTy).Contents (Elt F) → (⟨S4096, .i32⟩ : BufTy).Contents (Elt F) → (⟨S167772, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v14 : StableHlo.TRef sig ⟨S167772, .i32⟩) (.of main_call3_call0_v0 : StableHlo.TRef sig ⟨S_, .i32⟩) (.of main_v15 : StableHlo.TRef sig ⟨S167772, .i32⟩) (fun x v => Host.reduceWindow IntOp.addi ![167772] ![1] ![167771] ![0] x v reduceWindows_S167772_S167772_w167772s1p167771_0 h_S_),
    StableHlo.nullary main_c_5 (constantI S_ 32 1#32),
    StableHlo.unary main_c_5 main_v16 (broadcastInDim S167772 ![] bcast_S_S167772 : (⟨S_, .i32⟩ : BufTy).Contents (Elt F) → (⟨S167772, .i32⟩ : BufTy).Contents (Elt F)),
    StableHlo.binary main_v15 main_v16 main_v17 (subi : (⟨S167772, .i32⟩ : BufTy).Contents (Elt F) → (⟨S167772, .i32⟩ : BufTy).Contents (Elt F) → (⟨S167772, .i32⟩ : BufTy).Contents (Elt F)),
    StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S167772, .i32⟩) (broadcastInDim S167772 ![] bcast_S_S167772),
    StableHlo.TRef.binary (.of main_v17 : StableHlo.TRef sig ⟨S167772, .i32⟩) (.of main_call4_v0 : StableHlo.TRef sig ⟨S167772, .i32⟩) (.of main_call4_v1 : StableHlo.TRef sig ⟨S167772, .i1⟩) (cmpi .slt),
    StableHlo.TRef.nullary (.of main_call4_c_0 : StableHlo.TRef sig ⟨S_, .i32⟩) (constantI S_ 32 4096#32),
    StableHlo.TRef.unary (.of main_call4_c_0 : StableHlo.TRef sig ⟨S_, .i32⟩) (.of main_call4_v2 : StableHlo.TRef sig ⟨S167772, .i32⟩) (broadcastInDim S167772 ![] bcast_S_S167772),
    StableHlo.TRef.binary (.of main_v17 : StableHlo.TRef sig ⟨S167772, .i32⟩) (.of main_call4_v2 : StableHlo.TRef sig ⟨S167772, .i32⟩) (.of main_call4_v3 : StableHlo.TRef sig ⟨S167772, .i32⟩) addi,
    StableHlo.TRef.ternary (.of main_call4_v1 : StableHlo.TRef sig ⟨S167772, .i1⟩) (.of main_call4_v3 : StableHlo.TRef sig ⟨S167772, .i32⟩) (.of main_v17 : StableHlo.TRef sig ⟨S167772, .i32⟩) (.of main_call4_v4 : StableHlo.TRef sig ⟨S167772, .i32⟩) select,
    StableHlo.TRef.unary main_call4_call0.v0 (.of main_call4_v5 : StableHlo.TRef sig ⟨S167772x1, .i32⟩) (broadcastInDim S167772x1 ![0] bcast_S167772_S167772x1_0),
    StableHlo.TRef.nullary (.of main_call4_c_1 : StableHlo.TRef sig ⟨S1, .i32⟩) (constantI S1 32 4095#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S167772x1, .i32⟩) (broadcastInDim S167772x1 ![] bcast_S_S167772x1),
    StableHlo.TRef.binary (.of main_call4_v5 : StableHlo.TRef sig ⟨S167772x1, .i32⟩) (.of main_call4_v6 : StableHlo.TRef sig ⟨S167772x1, .i32⟩) (.of main_call4_v7 : StableHlo.TRef sig ⟨S167772x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S167772x1, .i32⟩) (broadcastInDim S167772x1 ![0, 1] bcast_S1x1_S167772x1_0_1),
    StableHlo.TRef.binary (.of main_call4_v5 : StableHlo.TRef sig ⟨S167772x1, .i32⟩) (.of main_call4_v9 : StableHlo.TRef sig ⟨S167772x1, .i32⟩) (.of main_call4_v10 : StableHlo.TRef sig ⟨S167772x1, .i1⟩) (cmpi .sle),
    StableHlo.TRef.binary (.of main_call4_v7 : StableHlo.TRef sig ⟨S167772x1, .i1⟩) (.of main_call4_v10 : StableHlo.TRef sig ⟨S167772x1, .i1⟩) (.of main_call4_v11 : StableHlo.TRef sig ⟨S167772x1, .i1⟩) andi,
    StableHlo.TRef.nullary (.of main_call4_c_3 : StableHlo.TRef sig ⟨S_, .i1⟩) (constantI S_ 1 1#1),
    StableHlo.TRef.binary (.of main_call4_v11 : StableHlo.TRef sig ⟨S167772x1, .i1⟩) (.of main_call4_c_3 : StableHlo.TRef sig ⟨S_, .i1⟩) (.of main_call4_v12 : StableHlo.TRef sig ⟨S167772, .i1⟩) (fun x v => Host.reduce IntOp.andi x v reducesTo_S167772x1_S167772_d1 h_S_),
    StableHlo.TRef.binary (.of main_v1 : StableHlo.TRef sig ⟨S4096, .i32⟩) (.of main_call4_v5 : StableHlo.TRef sig ⟨S167772x1, .i32⟩) (.of main_call4_v13 : StableHlo.TRef sig ⟨S167772, .i32⟩) (fun x i => Host.gather gather_S4096_S167772x1_S167772_n_0_n_n_0_1_1 x i),
    StableHlo.TRef.nullary (.of main_call4_c_4 : StableHlo.TRef sig ⟨S_, .i32⟩) (constantI S_ 32 2147483648#32),
    StableHlo.TRef.unary (.of main_call4_c_4 : StableHlo.TRef sig ⟨S_, .i32⟩) (.of main_call4_v14 : StableHlo.TRef sig ⟨S167772, .i32⟩) (broadcastInDim S167772 ![] bcast_S_S167772),
    StableHlo.TRef.ternary (.of main_call4_v12 : StableHlo.TRef sig ⟨S167772, .i1⟩) (.of main_call4_v13 : StableHlo.TRef sig ⟨S167772, .i32⟩) (.of main_call4_v14 : StableHlo.TRef sig ⟨S167772, .i32⟩) (.of main_v18 : StableHlo.TRef sig ⟨S167772, .i32⟩) select,
    StableHlo.nullary main_cst (constant S_ .f32 0x00000000#32),
    StableHlo.unary main_cst main_v19 (broadcastInDim S4096x4096 ![] bcast_S_S4096x4096 : (⟨S_, .f32⟩ : BufTy).Contents (Elt F) → (⟨S4096x4096, .f32⟩ : BufTy).Contents (Elt F)),
    StableHlo.nullary main_c_6 (constantI S_ 32 0#32),
    StableHlo.unary main_c_6 main_v20 (broadcastInDim S167772 ![] bcast_S_S167772 : (⟨S_, .i32⟩ : BufTy).Contents (Elt F) → (⟨S167772, .i32⟩ : BufTy).Contents (Elt F)),
    StableHlo.binary main_v18 main_v20 main_v21 (cmpi .slt : (⟨S167772, .i32⟩ : BufTy).Contents (Elt F) → (⟨S167772, .i32⟩ : BufTy).Contents (Elt F) → (⟨S167772, .i1⟩ : BufTy).Contents (Elt F)),
    StableHlo.nullary main_c_7 (constantI S_ 32 4096#32),
    StableHlo.unary main_c_7 main_v22 (broadcastInDim S167772 ![] bcast_S_S167772 : (⟨S_, .i32⟩ : BufTy).Contents (Elt F) → (⟨S167772, .i32⟩ : BufTy).Contents (Elt F)),
    StableHlo.binary main_v18 main_v22 main_v23 (addi : (⟨S167772, .i32⟩ : BufTy).Contents (Elt F) → (⟨S167772, .i32⟩ : BufTy).Contents (Elt F) → (⟨S167772, .i32⟩ : BufTy).Contents (Elt F)),
    StableHlo.ternary main_v21 main_v23 main_v18 main_v24 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_8 (constantI S_ 32 0#32),
    StableHlo.unary main_c_8 main_v25 (broadcastInDim S167772 ![] bcast_S_S167772 : (⟨S_, .i32⟩ : BufTy).Contents (Elt F) → (⟨S167772, .i32⟩ : BufTy).Contents (Elt F)),
    StableHlo.binary main_arg3 main_v25 main_v26 (cmpi .slt : (⟨S167772, .i32⟩ : BufTy).Contents (Elt F) → (⟨S167772, .i32⟩ : BufTy).Contents (Elt F) → (⟨S167772, .i1⟩ : BufTy).Contents (Elt F)),
    StableHlo.nullary main_c_9 (constantI S_ 32 4096#32),
    StableHlo.unary main_c_9 main_v27 (broadcastInDim S167772 ![] bcast_S_S167772 : (⟨S_, .i32⟩ : BufTy).Contents (Elt F) → (⟨S167772, .i32⟩ : BufTy).Contents (Elt F)),
    StableHlo.binary main_arg3 main_v27 main_v28 (addi : (⟨S167772, .i32⟩ : BufTy).Contents (Elt F) → (⟨S167772, .i32⟩ : BufTy).Contents (Elt F) → (⟨S167772, .i32⟩ : BufTy).Contents (Elt F)),
    StableHlo.ternary main_v26 main_v28 main_arg3 main_v29 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v24 main_v30 (broadcastInDim S167772x1 ![0] bcast_S167772_S167772x1_0 : (⟨S167772, .i32⟩ : BufTy).Contents (Elt F) → (⟨S167772x1, .i32⟩ : BufTy).Contents (Elt F)),
    StableHlo.unary main_v29 main_v31 (broadcastInDim S167772x1 ![0] bcast_S167772_S167772x1_0 : (⟨S167772, .i32⟩ : BufTy).Contents (Elt F) → (⟨S167772x1, .i32⟩ : BufTy).Contents (Elt F)),
    StableHlo.binary main_v30 main_v31 main_v32 ((fun a b => concatenate S167772x2 1 [⟨S167772x1, a⟩, ⟨S167772x1, b⟩] concatenates_S167772x1_S167772x1_S167772x2_d1) : (⟨S167772x1, .i32⟩ : BufTy).Contents (Elt F) → (⟨S167772x1, .i32⟩ : BufTy).Contents (Elt F) → (⟨S167772x2, .i32⟩ : BufTy).Contents (Elt F)),
    StableHlo.ternary main_v19 main_v32 main_arg1 main_v33 ((fun x i u => Host.scatterAdd scatter_S4096x4096_S167772x2_S167772_n_01_01_1 x i u) : (⟨S4096x4096, .f32⟩ : BufTy).Contents (Elt F) → (⟨S167772x2, .i32⟩ : BufTy).Contents (Elt F) → (⟨S167772, .f32⟩ : BufTy).Contents (Elt F) → (⟨S4096x4096, .f32⟩ : BufTy).Contents (Elt F)) ]

/-- The last operation: the contraction of the activations' last axis with the weight's second. -/
abbrev opDot : HloOp τ sig (Elt F) :=
  StableHlo.binary main_arg0 main_v33 main_v34 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F))

/-- All 76, in order. -/
abbrev ops : List (HloOp τ sig (Elt F)) :=
  [ StableHlo.TRef.unary (.of main_arg2 : StableHlo.TRef sig ⟨S4097, .i32⟩) (.of main_call0_v0 : StableHlo.TRef sig ⟨S4096, .i32⟩) (extractStridedSlice S4096 ![1] · slices_S4097_S4096_1),
    StableHlo.TRef.unary (.of main_arg2 : StableHlo.TRef sig ⟨S4097, .i32⟩) (.of main_call0_v1 : StableHlo.TRef sig ⟨S4096, .i32⟩) (extractStridedSlice S4096 ![0] · slices_S4097_S4096_0),
    StableHlo.TRef.binary (.of main_call0_v0 : StableHlo.TRef sig ⟨S4096, .i32⟩) (.of main_call0_v1 : StableHlo.TRef sig ⟨S4096, .i32⟩) (.of main_v0 : StableHlo.TRef sig ⟨S4096, .i32⟩) subi,
    StableHlo.nullary main_v1 (iotaInDim S4096 32 0),
    StableHlo.TRef.unary (.of main_v0 : StableHlo.TRef sig ⟨S4096, .i32⟩) (.of main_call1_v0 : StableHlo.TRef sig ⟨S1, .i32⟩) (extractStridedSlice S1 ![4095] · slices_S4096_S1_4095),
    StableHlo.TRef.unary (.of main_v0 : StableHlo.TRef sig ⟨S4096, .i32⟩) (.of main_call1_v1 : StableHlo.TRef sig ⟨S4095, .i32⟩) (extractStridedSlice S4095 ![0] · slices_S4096_S4095_0),
    StableHlo.TRef.binary (.of main_call1_v0 : StableHlo.TRef sig ⟨S1, .i32⟩) (.of main_call1_v1 : StableHlo.TRef sig ⟨S4095, .i32⟩) (.of main_v2 : StableHlo.TRef sig ⟨S4096, .i32⟩) (fun a b => concatenate S4096 0 [⟨S1, a⟩, ⟨S4095, b⟩] concatenates_S1_S4095_S4096_d0),
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v2 main_v3 main_c_0 main_v4 ((fun x i u => Host.scatter scatter_S4096_S1_S__n_0_0_0 (fun _ b => b) x i u) : (⟨S4096, .i32⟩ : BufTy).Contents (Elt F) → (⟨S1, .i32⟩ : BufTy).Contents (Elt F) → (⟨S_, .i32⟩ : BufTy).Contents (Elt F) → (⟨S4096, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v4 : StableHlo.TRef sig ⟨S4096, .i32⟩) (.of main_call2_call0_v0 : StableHlo.TRef sig ⟨S_, .i32⟩) (.of main_v5 : StableHlo.TRef sig ⟨S4096, .i32⟩) (fun x v => Host.reduceWindow IntOp.addi ![4096] ![1] ![4095] ![0] x v reduceWindows_S4096_S4096_w4096s1p4095_0 h_S_),
    StableHlo.nullary main_c_1 (constantI S_ 32 0#32),
    StableHlo.unary main_c_1 main_v6 (broadcastInDim S167772 ![] bcast_S_S167772 : (⟨S_, .i32⟩ : BufTy).Contents (Elt F) → (⟨S167772, .i32⟩ : BufTy).Contents (Elt F)),
    StableHlo.nullary main_c_2 (constantI S_ 32 0#32),
    StableHlo.unary main_c_2 main_v7 (broadcastInDim S4096 ![] bcast_S_S4096 : (⟨S_, .i32⟩ : BufTy).Contents (Elt F) → (⟨S4096, .i32⟩ : BufTy).Contents (Elt F)),
    StableHlo.binary main_v5 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 167772#32),
    StableHlo.unary main_c_3 main_v9 (broadcastInDim S4096 ![] bcast_S_S4096 : (⟨S_, .i32⟩ : BufTy).Contents (Elt F) → (⟨S4096, .i32⟩ : BufTy).Contents (Elt F)),
    StableHlo.binary main_v5 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_v5 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v13 (broadcastInDim S4096 ![] bcast_S_S4096 : (⟨S_, .i32⟩ : BufTy).Contents (Elt F) → (⟨S4096, .i32⟩ : BufTy).Contents (Elt F)),
    StableHlo.ternary main_v6 main_v12 main_v13 main_v14 ((fun x i u => Host.scatter scatter_S167772_S4096x1_S4096_n_0_0_1 IntOp.addi x i u) : (⟨S167772, .i32⟩ : BufTy).Contents (Elt F) → (⟨S4096x1, .i32⟩ : BufTy).Contents (Elt F) → (⟨S4096, .i32⟩ : BufTy).Contents (Elt F) → (⟨S167772, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v14 : StableHlo.TRef sig ⟨S167772, .i32⟩) (.of main_call3_call0_v0 : StableHlo.TRef sig ⟨S_, .i32⟩) (.of main_v15 : StableHlo.TRef sig ⟨S167772, .i32⟩) (fun x v => Host.reduceWindow IntOp.addi ![167772] ![1] ![167771] ![0] x v reduceWindows_S167772_S167772_w167772s1p167771_0 h_S_),
    StableHlo.nullary main_c_5 (constantI S_ 32 1#32),
    StableHlo.unary main_c_5 main_v16 (broadcastInDim S167772 ![] bcast_S_S167772 : (⟨S_, .i32⟩ : BufTy).Contents (Elt F) → (⟨S167772, .i32⟩ : BufTy).Contents (Elt F)),
    StableHlo.binary main_v15 main_v16 main_v17 (subi : (⟨S167772, .i32⟩ : BufTy).Contents (Elt F) → (⟨S167772, .i32⟩ : BufTy).Contents (Elt F) → (⟨S167772, .i32⟩ : BufTy).Contents (Elt F)),
    StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S167772, .i32⟩) (broadcastInDim S167772 ![] bcast_S_S167772),
    StableHlo.TRef.binary (.of main_v17 : StableHlo.TRef sig ⟨S167772, .i32⟩) (.of main_call4_v0 : StableHlo.TRef sig ⟨S167772, .i32⟩) (.of main_call4_v1 : StableHlo.TRef sig ⟨S167772, .i1⟩) (cmpi .slt),
    StableHlo.TRef.nullary (.of main_call4_c_0 : StableHlo.TRef sig ⟨S_, .i32⟩) (constantI S_ 32 4096#32),
    StableHlo.TRef.unary (.of main_call4_c_0 : StableHlo.TRef sig ⟨S_, .i32⟩) (.of main_call4_v2 : StableHlo.TRef sig ⟨S167772, .i32⟩) (broadcastInDim S167772 ![] bcast_S_S167772),
    StableHlo.TRef.binary (.of main_v17 : StableHlo.TRef sig ⟨S167772, .i32⟩) (.of main_call4_v2 : StableHlo.TRef sig ⟨S167772, .i32⟩) (.of main_call4_v3 : StableHlo.TRef sig ⟨S167772, .i32⟩) addi,
    StableHlo.TRef.ternary (.of main_call4_v1 : StableHlo.TRef sig ⟨S167772, .i1⟩) (.of main_call4_v3 : StableHlo.TRef sig ⟨S167772, .i32⟩) (.of main_v17 : StableHlo.TRef sig ⟨S167772, .i32⟩) (.of main_call4_v4 : StableHlo.TRef sig ⟨S167772, .i32⟩) select,
    StableHlo.TRef.unary main_call4_call0.v0 (.of main_call4_v5 : StableHlo.TRef sig ⟨S167772x1, .i32⟩) (broadcastInDim S167772x1 ![0] bcast_S167772_S167772x1_0),
    StableHlo.TRef.nullary (.of main_call4_c_1 : StableHlo.TRef sig ⟨S1, .i32⟩) (constantI S1 32 4095#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S167772x1, .i32⟩) (broadcastInDim S167772x1 ![] bcast_S_S167772x1),
    StableHlo.TRef.binary (.of main_call4_v5 : StableHlo.TRef sig ⟨S167772x1, .i32⟩) (.of main_call4_v6 : StableHlo.TRef sig ⟨S167772x1, .i32⟩) (.of main_call4_v7 : StableHlo.TRef sig ⟨S167772x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S167772x1, .i32⟩) (broadcastInDim S167772x1 ![0, 1] bcast_S1x1_S167772x1_0_1),
    StableHlo.TRef.binary (.of main_call4_v5 : StableHlo.TRef sig ⟨S167772x1, .i32⟩) (.of main_call4_v9 : StableHlo.TRef sig ⟨S167772x1, .i32⟩) (.of main_call4_v10 : StableHlo.TRef sig ⟨S167772x1, .i1⟩) (cmpi .sle),
    StableHlo.TRef.binary (.of main_call4_v7 : StableHlo.TRef sig ⟨S167772x1, .i1⟩) (.of main_call4_v10 : StableHlo.TRef sig ⟨S167772x1, .i1⟩) (.of main_call4_v11 : StableHlo.TRef sig ⟨S167772x1, .i1⟩) andi,
    StableHlo.TRef.nullary (.of main_call4_c_3 : StableHlo.TRef sig ⟨S_, .i1⟩) (constantI S_ 1 1#1),
    StableHlo.TRef.binary (.of main_call4_v11 : StableHlo.TRef sig ⟨S167772x1, .i1⟩) (.of main_call4_c_3 : StableHlo.TRef sig ⟨S_, .i1⟩) (.of main_call4_v12 : StableHlo.TRef sig ⟨S167772, .i1⟩) (fun x v => Host.reduce IntOp.andi x v reducesTo_S167772x1_S167772_d1 h_S_),
    StableHlo.TRef.binary (.of main_v1 : StableHlo.TRef sig ⟨S4096, .i32⟩) (.of main_call4_v5 : StableHlo.TRef sig ⟨S167772x1, .i32⟩) (.of main_call4_v13 : StableHlo.TRef sig ⟨S167772, .i32⟩) (fun x i => Host.gather gather_S4096_S167772x1_S167772_n_0_n_n_0_1_1 x i),
    StableHlo.TRef.nullary (.of main_call4_c_4 : StableHlo.TRef sig ⟨S_, .i32⟩) (constantI S_ 32 2147483648#32),
    StableHlo.TRef.unary (.of main_call4_c_4 : StableHlo.TRef sig ⟨S_, .i32⟩) (.of main_call4_v14 : StableHlo.TRef sig ⟨S167772, .i32⟩) (broadcastInDim S167772 ![] bcast_S_S167772),
    StableHlo.TRef.ternary (.of main_call4_v12 : StableHlo.TRef sig ⟨S167772, .i1⟩) (.of main_call4_v13 : StableHlo.TRef sig ⟨S167772, .i32⟩) (.of main_call4_v14 : StableHlo.TRef sig ⟨S167772, .i32⟩) (.of main_v18 : StableHlo.TRef sig ⟨S167772, .i32⟩) select,
    StableHlo.nullary main_cst (constant S_ .f32 0x00000000#32),
    StableHlo.unary main_cst main_v19 (broadcastInDim S4096x4096 ![] bcast_S_S4096x4096 : (⟨S_, .f32⟩ : BufTy).Contents (Elt F) → (⟨S4096x4096, .f32⟩ : BufTy).Contents (Elt F)),
    StableHlo.nullary main_c_6 (constantI S_ 32 0#32),
    StableHlo.unary main_c_6 main_v20 (broadcastInDim S167772 ![] bcast_S_S167772 : (⟨S_, .i32⟩ : BufTy).Contents (Elt F) → (⟨S167772, .i32⟩ : BufTy).Contents (Elt F)),
    StableHlo.binary main_v18 main_v20 main_v21 (cmpi .slt : (⟨S167772, .i32⟩ : BufTy).Contents (Elt F) → (⟨S167772, .i32⟩ : BufTy).Contents (Elt F) → (⟨S167772, .i1⟩ : BufTy).Contents (Elt F)),
    StableHlo.nullary main_c_7 (constantI S_ 32 4096#32),
    StableHlo.unary main_c_7 main_v22 (broadcastInDim S167772 ![] bcast_S_S167772 : (⟨S_, .i32⟩ : BufTy).Contents (Elt F) → (⟨S167772, .i32⟩ : BufTy).Contents (Elt F)),
    StableHlo.binary main_v18 main_v22 main_v23 (addi : (⟨S167772, .i32⟩ : BufTy).Contents (Elt F) → (⟨S167772, .i32⟩ : BufTy).Contents (Elt F) → (⟨S167772, .i32⟩ : BufTy).Contents (Elt F)),
    StableHlo.ternary main_v21 main_v23 main_v18 main_v24 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_8 (constantI S_ 32 0#32),
    StableHlo.unary main_c_8 main_v25 (broadcastInDim S167772 ![] bcast_S_S167772 : (⟨S_, .i32⟩ : BufTy).Contents (Elt F) → (⟨S167772, .i32⟩ : BufTy).Contents (Elt F)),
    StableHlo.binary main_arg3 main_v25 main_v26 (cmpi .slt : (⟨S167772, .i32⟩ : BufTy).Contents (Elt F) → (⟨S167772, .i32⟩ : BufTy).Contents (Elt F) → (⟨S167772, .i1⟩ : BufTy).Contents (Elt F)),
    StableHlo.nullary main_c_9 (constantI S_ 32 4096#32),
    StableHlo.unary main_c_9 main_v27 (broadcastInDim S167772 ![] bcast_S_S167772 : (⟨S_, .i32⟩ : BufTy).Contents (Elt F) → (⟨S167772, .i32⟩ : BufTy).Contents (Elt F)),
    StableHlo.binary main_arg3 main_v27 main_v28 (addi : (⟨S167772, .i32⟩ : BufTy).Contents (Elt F) → (⟨S167772, .i32⟩ : BufTy).Contents (Elt F) → (⟨S167772, .i32⟩ : BufTy).Contents (Elt F)),
    StableHlo.ternary main_v26 main_v28 main_arg3 main_v29 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v24 main_v30 (broadcastInDim S167772x1 ![0] bcast_S167772_S167772x1_0 : (⟨S167772, .i32⟩ : BufTy).Contents (Elt F) → (⟨S167772x1, .i32⟩ : BufTy).Contents (Elt F)),
    StableHlo.unary main_v29 main_v31 (broadcastInDim S167772x1 ![0] bcast_S167772_S167772x1_0 : (⟨S167772, .i32⟩ : BufTy).Contents (Elt F) → (⟨S167772x1, .i32⟩ : BufTy).Contents (Elt F)),
    StableHlo.binary main_v30 main_v31 main_v32 ((fun a b => concatenate S167772x2 1 [⟨S167772x1, a⟩, ⟨S167772x1, b⟩] concatenates_S167772x1_S167772x1_S167772x2_d1) : (⟨S167772x1, .i32⟩ : BufTy).Contents (Elt F) → (⟨S167772x1, .i32⟩ : BufTy).Contents (Elt F) → (⟨S167772x2, .i32⟩ : BufTy).Contents (Elt F)),
    StableHlo.ternary main_v19 main_v32 main_arg1 main_v33 ((fun x i u => Host.scatterAdd scatter_S4096x4096_S167772x2_S167772_n_01_01_1 x i u) : (⟨S4096x4096, .f32⟩ : BufTy).Contents (Elt F) → (⟨S167772x2, .i32⟩ : BufTy).Contents (Elt F) → (⟨S167772, .f32⟩ : BufTy).Contents (Elt F) → (⟨S4096x4096, .f32⟩ : BufTy).Contents (Elt F)),
    StableHlo.binary main_arg0 main_v33 main_v34 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)) ]

/-- Every operation touches buffers of the core only. -/
theorem ops_sub : (ops : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.unary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.binary_bufs_sub ..⟩

end Cert.ReferenceIdeal.HandRun

end
-- ==== Proof.RefRun.lean ====
/-
  The reference program run from any memory.

  The reference's @main is a straight line: 75 host operations that build the dense weight W from the CSR arrays
  (values, row offsets, column indices) and one contraction of the activations with it. Every weakly fair execution
  terminates with each buffer at the fold of the operations over the launch contents; read at the result buffer the
  fold is the contraction of the first argument with what the first 75 operations leave in the weight's buffer, and
  the four argument buffers are written by no operation.
-/
import proofs.«117117_j56341380989458_1_alg».proof.Proof.RefOps
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem
open Idealize.ShloMosaic.StableHlo

variable {F : FTy → Type} [FloatOps F]

/-- @main is that straight line: each call is its callee's operations in place, and sequencing re-associates; both
    sides unfold to the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- The whole line is the weight's 75 operations followed by the contraction. -/
theorem ops_eq : (ops : List (HloOp τ sig (Elt F))) = opsW ++ [opDot] := rfl

/-- A line run in two parts. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The weight as the reference builds it: what the first 75 operations leave in its buffer. -/
def weight (V : Valuation τ sig (Elt F)) : Vec F S4096x4096 .f32 := after opsW V (main_v33 : DevRef τ sig)

/-- The contraction reads the first argument as launched (no operation writes it) and the weight's buffer as the
    first 75 operations leave it (the contraction itself writes only its result). -/
theorem result_eq (V : Valuation τ sig (Elt F)) :
    after ops V (main_v34 : DevRef τ sig)
      = Host.dotGeneral dot_S4x2048x4096_S4096x4096_S4x2048x4096_2_1_01_0_n_n none (V (main_arg0 : DevRef τ sig)) (weight V) := by
  rw [ops_eq, after_append]
  unfold weight
  generalize hW : after opsW V = W
  have h0 : W (main_arg0 : DevRef τ sig) = V (main_arg0 : DevRef τ sig) := by
    rw [← hW]
    exact after_of_forall_not_mem (b := Proc.devRef .tc main_arg0) _ _ (List.forall_iff_forall_mem.mp (by
      simp only [opsW, List.Forall, nullary_writes, unary_writes, binary_writes, ternary_writes, quaternary_writes,
        reshape_writes, Finset.mem_singleton]
      repeat' apply And.intro
      all_goals exact devRef_ne_of_ne (by decide)))
  rw [← h0]
  after_results

/-- No operation writes an argument. -/
theorem arg_kept (V : Valuation τ sig (Elt F)) (b : Ref sig .tc) (hb : b = main_arg0 ∨ b = main_arg1 ∨ b = main_arg2 ∨ b = main_arg3) :
    after ops V (b : DevRef τ sig) = V (b : DevRef τ sig) := by
  refine after_of_forall_not_mem (b := Proc.devRef .tc b) _ _ (List.forall_iff_forall_mem.mp ?_)
  rcases hb with rfl | rfl | rfl | rfl
  all_goals
    simp only [ops, List.Forall, nullary_writes, unary_writes, binary_writes, ternary_writes, quaternary_writes,
      reshape_writes, Finset.mem_singleton]
    repeat' apply And.intro
    all_goals exact devRef_ne_of_ne (by decide)

/-- From any memory with zero counters every weakly fair execution of the reference terminates; the result buffer ends
    at the contraction of the first argument with the weight built from the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = Host.dotGeneral dot_S4x2048x4096_S4096x4096_S4x2048x4096_2_1_01_0_n_n none
              (m ((c.tc : Thread nD τ).loc main_arg0)) (weight (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v34).trans (result_eq _),
      (h c main_arg0).trans (arg_kept _ _ (.inl rfl)),
      (h c main_arg1).trans (arg_kept _ _ (.inr (.inl rfl))),
      (h c main_arg2).trans (arg_kept _ _ (.inr (.inr (.inl rfl)))),
      (h c main_arg3).trans (arg_kept _ _ (.inr (.inr (.inr rfl))))⟩)
    (run_seq scopedRefs_eq scopedSems_eq defs main (fun _ => ops) main_eq (fun _ => ops_sub) m ρ)

end Cert.ReferenceIdeal.HandRun

end
-- ==== Proof.KPieces.lean ====
/-
  What one grid point leaves behind, case by case.

  The body keeps a 1024×1024 f32 accumulator in a scratch buffer across the innermost grid axis k (the contraction axis).
  At k = 0 it first stores the zero block, then in every case loads the accumulator, adds the product of the point's
  activation block with its weight block, and stores the sum back; at k = 3 it also copies the accumulator to the output
  block. Each case's found stores cover the buffer they write, so what the buffer holds afterwards is the last store's
  value: the accumulation step applied to the two input blocks and to what the accumulator held (the zero block at k = 0,
  since the load that follows the reset reads the reset's value). At k = 3 the output block is the freshly stored
  accumulator, read back.
-/
import proofs.«117117_j56341380989458_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- Offsets of a whole-block access. -/
theorem hz : (![0, 0] : Fin 2 → Nat) = fun _ => 0 := funext fun a => by fin_cases a <;> rfl

/-- A middle point (0 < k < 3): the accumulator ends at the step applied to what it held. -/
theorem sout_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .bf16) (xs0 : Vec F S1024x1024 .f32) :
    sout0_B_0 c i arg3 harg3 arg4 harg4 arg5 harg5 arg6 harg6 hc0 hc1 x0 x1 xs0 = k0_pay2 x0 xs0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

/-- The first point of a run over k (k = 0): the reset is read back by the step's load, so the accumulator ends at the
    step applied to the zero block. -/
theorem sout_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .bf16) :
    sout0_A_0 c i arg3 harg3 arg4 harg4 arg5 harg5 arg6 harg6 hc0 hc1 x0 x1 = k0_pay2 x0 (k0_pay1 (F := F)) x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg6.read_unread, View.ld_unit_zero (S := S1024x1024) hz]

/-- The last point (k = 3): the accumulator ends at the step applied to what it held … -/
theorem sout_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .bf16) (xs0 : Vec F S1024x1024 .f32) :
    sout0_C_0 c i arg3 harg3 arg4 harg4 arg5 harg5 arg6 harg6 hc0 hc1 x0 x1 xs0 = k0_pay2 x0 xs0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

/-- … and the output block is that same value, read back from the accumulator. -/
theorem out_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .bf16) (xs0 : Vec F S1024x1024 .f32) :
    out0_C_2 c i arg3 harg3 arg4 harg4 arg5 harg5 arg6 harg6 hc0 hc1 x0 x1 xs0 = k0_pay2 x0 xs0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz, View.readCov_unit_zero (S := S1024x1024) _ hz]

end Cert.KernelIdeal.Pieces

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KPayload.lean ====
import proofs.«117117_j56341380989458_1_alg».proof.Proof.Gen.KernelIdeal.Skeleton
import proofs.«117117_j56341380989458_1_alg».proof.Proof.LibPlainDot
import Idealize.ShloMosaic.Lib.ValueIdx
import Idealize.ShloMosaic.Lib.Pipeline.Value
import Idealize.ShloMosaic.PureOps.Ideal.Laws
noncomputable section
namespace Cert.KernelIdeal.Payload
open Cert.KernelIdeal Cert.KernelIdeal.Gen Idealize.ShloMosaic Idealize.ShloMosaic.ValueIdx

/-- The reset block is zero at every entry. -/
theorem pay1_apply (p q : Fin 1024) : (k0_pay1 (F := Ideal) : FVec Ideal S1024x1024 .f32) (ix2 p q) = 0 := by
  unfold k0_pay1
  rw [shapeCast_self]
  exact Ideal.ofBits_zero_f32

/-- One accumulation step at an entry: the old entry plus the row-by-column sum of the two blocks. -/
theorem pay2_apply (v3 v6 : Vec Ideal S1024x1024 .f32) (v7 : Vec Ideal S1024x1024 .bf16) (p q : Fin 1024) :
    (k0_pay2 v3 v6 v7 : FVec Ideal S1024x1024 .f32) (ix2 p q) = v6 (ix2 p q) + ∑ k : Fin 1024, v3 (ix2 p k) * v7 (ix2 k q) := by
  unfold k0_pay2
  simp only [shapeCast_self]
  refine congrArg (v6 (ix2 p q) + ·) ?_
  exact PlainDot.matmul_zero_apply 1024 1024 1024 (truncf .bf16 v3 bitsLt_bf16_f32) v7 p q

end Cert.KernelIdeal.Payload
end
-- ==== Proof.RefRead.lean ====
/-
  The reference's last operation read at an entry, and a block decomposition of a finite sum.

  The reference multiplies the activations x : [4, 2048, 4096] by the weight w : [4096, 4096], contracting x's last
  axis with w's last axis: entry (b, s, o) of the result is Σ_i x (b, s, i) · w (o, i). On the extended reals the
  product keeps no rounding and no order of summation, so the entry is that plain sum. The result's axes 0 and 1 are
  the left operand's free axes 0 and 1, its axis 2 is the right operand's free axis 0, and the one contracted
  coordinate sits on the left operand's axis 2 and the right operand's axis 1.

  The second fact: the naturals below K·B split into K consecutive blocks of length B, and a sum over them is the
  sum of the block sums.
-/
import proofs.«117117_j56341380989458_1_alg».proof.Proof.Gen.ReferenceIdeal
import Idealize.ShloMosaic.Lib.ValueIdx
import Idealize.ShloMosaic.PureOps.Ideal.Laws
import Mathlib.Algebra.BigOperators.Fin
import Mathlib.Algebra.BigOperators.Intervals

noncomputable section

namespace Cert.ReferenceIdeal.RefRead

open Cert.ReferenceIdeal Cert.ReferenceIdeal.Gen Idealize.ShloMosaic Idealize.ShloMosaic.ValueIdx

/-- The left operand's axis 0 reads the result's axis 0. -/
theorem lhs_ax0 (j : S4x2048x4096.Idx)
    (c : dot_S4x2048x4096_S4096x4096_S4x2048x4096_2_1_01_0_n_n.contr.Idx) :
    (dot_S4x2048x4096_S4096x4096_S4x2048x4096_2_1_01_0_n_n.lhsIdx j c 0).val = (j 0).val := by
  unfold DotDims.lhsIdx
  rw [dif_neg (show ¬(0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  rfl

/-- The left operand's axis 1 reads the result's axis 1. -/
theorem lhs_ax1 (j : S4x2048x4096.Idx)
    (c : dot_S4x2048x4096_S4096x4096_S4x2048x4096_2_1_01_0_n_n.contr.Idx) :
    (dot_S4x2048x4096_S4096x4096_S4x2048x4096_2_1_01_0_n_n.lhsIdx j c 1).val = (j 1).val := by
  unfold DotDims.lhsIdx
  rw [dif_neg (show ¬(1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  rfl

/-- The left operand's axis 2 is the contracted one: it reads the contraction index. -/
theorem lhs_ax2 (j : S4x2048x4096.Idx)
    (c : dot_S4x2048x4096_S4096x4096_S4x2048x4096_2_1_01_0_n_n.contr.Idx) :
    (dot_S4x2048x4096_S4096x4096_S4x2048x4096_2_1_01_0_n_n.lhsIdx j c 2).val = (c ⟨0, Nat.one_pos⟩).val :=
  dot_S4x2048x4096_S4096x4096_S4x2048x4096_2_1_01_0_n_n.lhsIdx_val_of_single rfl j c

/-- The right operand's axis 0 reads the result's axis 2. -/
theorem rhs_ax0 (j : S4x2048x4096.Idx)
    (c : dot_S4x2048x4096_S4096x4096_S4x2048x4096_2_1_01_0_n_n.contr.Idx) :
    (dot_S4x2048x4096_S4096x4096_S4x2048x4096_2_1_01_0_n_n.rhsIdx j c 0).val = (j 2).val := by
  unfold DotDims.rhsIdx
  rw [dif_neg (show ¬(0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  rfl

/-- The right operand's axis 1 is the contracted one: it reads the contraction index. -/
theorem rhs_ax1 (j : S4x2048x4096.Idx)
    (c : dot_S4x2048x4096_S4096x4096_S4x2048x4096_2_1_01_0_n_n.contr.Idx) :
    (dot_S4x2048x4096_S4096x4096_S4x2048x4096_2_1_01_0_n_n.rhsIdx j c 1).val = (c ⟨0, Nat.one_pos⟩).val :=
  dot_S4x2048x4096_S4096x4096_S4x2048x4096_2_1_01_0_n_n.rhsIdx_val_of_single rfl j c

/-- The contraction at an entry: row (b, s) of the activations against row o of the weight. -/
theorem dot_apply (x : FVec Ideal S4x2048x4096 .f32) (w : FVec Ideal S4096x4096 .f32) (b : Fin 4) (s : Fin 2048) (o : Fin 4096) :
    Host.dotGeneral dot_S4x2048x4096_S4096x4096_S4x2048x4096_2_1_01_0_n_n none x w (ix3 b s o)
      = ∑ i : Fin 4096, x (ix3 b s i) * w (ix2 o i) := by
  simp only [Host.dotGeneral]
  rw [Ideal.dotGeneral_apply,
    ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have el : dot_S4x2048x4096_S4096x4096_S4x2048x4096_2_1_01_0_n_n.lhsIdx (ix3 b s o)
      ((contrEquiv1 dot_S4x2048x4096_S4096x4096_S4x2048x4096_2_1_01_0_n_n 4096 rfl rfl).symm k) = ix3 b s k :=
    funext fun a => Fin.ext (by
      match a with
      | ⟨0, _⟩ => exact lhs_ax0 _ _
      | ⟨1, _⟩ => exact lhs_ax1 _ _
      | ⟨2, _⟩ => exact (lhs_ax2 _ _).trans hk)
  have er : dot_S4x2048x4096_S4096x4096_S4x2048x4096_2_1_01_0_n_n.rhsIdx (ix3 b s o)
      ((contrEquiv1 dot_S4x2048x4096_S4096x4096_S4x2048x4096_2_1_01_0_n_n 4096 rfl rfl).symm k) = ix2 o k :=
    funext fun a => Fin.ext (by
      match a with
      | ⟨0, _⟩ => exact rhs_ax0 _ _
      | ⟨1, _⟩ => exact (rhs_ax1 _ _).trans hk)
  rw [el, er]

/-- A sum over K·B consecutive naturals, block by block. -/
theorem sum_blocks {M : Type*} [AddCommMonoid M] (K B : ℕ) (g : ℕ → M) :
    ∑ k ∈ Finset.range K, ∑ b : Fin B, g (k * B + b.val) = ∑ i : Fin (K * B), g i.val := by
  have hin : ∀ k, ∑ b : Fin B, g (k * B + b.val) = ∑ b ∈ Finset.range B, g (k * B + b) :=
    fun k => (Finset.sum_range fun b => g (k * B + b)).symm
  rw [← Finset.sum_range fun i => g i]
  simp only [hin]
  induction K with
  | zero => simp
  | succ n ih => rw [Finset.sum_range_succ, ih, Nat.succ_mul, Finset.sum_range_add]

end Cert.ReferenceIdeal.RefRead

end
-- ==== Proof.KAccum.lean ====
/-
  The accumulator along the contraction axis.

  The grid is 8 × 4 × 4: point n has row block n / 16, column block (n / 4) mod 4 and contraction block n mod 4, the
  last moving fastest. The activations X (8192 × 4096) are staged in 1024 × 1024 blocks (row block, contraction block),
  the narrowed transposed weight Wᵀ (4096 × 4096) in blocks (contraction block, column block). After point n the carried
  accumulator holds, at entry (p, q), the sum over the contraction blocks k ≤ n mod 4 of
  Σ_kk X (1024·(n/16) + p, 1024·k + kk) · Wᵀ (1024·k + kk, 1024·(n/4 mod 4) + q):
  the first point of a run over k starts from the zero block, every other point adds its block product to what the
  point before left. At the last point of a run (n mod 4 = 3) the output block is that same value, and the four block sums
  are the whole row-by-column sum over the 4096 contraction indices.
-/
import proofs.«117117_j56341380989458_1_alg».proof.Proof.KPieces
import proofs.«117117_j56341380989458_1_alg».proof.Proof.KPayload
import proofs.«117117_j56341380989458_1_alg».proof.Proof.RefRead

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The activations and the narrowed transposed weight as the region finds them, and the two blocks staged at a point. -/
abbrev xarr (c : Dev nD) : Vec Ideal S8192x4096 .f32 := V m c main_v36
abbrev warr (c : Dev nD) : Vec Ideal S4096x4096 .bf16 := V m c main_v35
abbrev xblk (c : Dev nD) (t : Fin cfg0.N) : Vec Ideal S1024x1024 .f32 := iblk m c 0 t
abbrev wblk (c : Dev nD) (t : Fin cfg0.N) : Vec Ideal S1024x1024 .bf16 := iblk m c 1 t

/-- The two arrays read at natural-number coordinates (zero outside the array: never read there). -/
def xN (c : Dev nD) (r i : ℕ) : EReal := if h : r < 8192 ∧ i < 4096 then xarr m c (ix2 ⟨r, h.1⟩ ⟨i, h.2⟩) else 0
def wN (c : Dev nD) (i o : ℕ) : EReal := if h : i < 4096 ∧ o < 4096 then warr m c (ix2 ⟨i, h.1⟩ ⟨o, h.2⟩) else 0

/-- Where each window's block sits at a point: (row block, contraction block), (contraction block, column block),
    (row block, column block). -/
theorem idx_facts : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- Window 0's block at a point read off ANY array of the activations' shape: the point's rows and contraction columns. -/
theorem blk0_read (A : Vec Ideal S8192x4096 .f32) (t : Fin cfg0.N) (p k : Fin 1024)
    (hp : t.val / 16 * 1024 + p.val < 8192) (hk : t.val % 4 * 1024 + k.val < 4096) :
    ((cfg0.win 0).blk t).view.read (Elt Ideal) A (ix2 p k) = A (ix2 ⟨_, hp⟩ ⟨_, hk⟩) := by
  obtain ⟨e0, e1, -, -, -, -⟩ := idx_facts t
  rw [View.read_apply]
  refine congrArg A (funext fun a => Fin.ext ?_)
  match a with
  | ⟨0, _⟩ => show win0_0.index t (0 : Fin 2) * 1024 + 1 * p.val = t.val / 16 * 1024 + p.val; rw [e0]; omega
  | ⟨1, _⟩ => show win0_0.index t (1 : Fin 2) * 1024 + 1 * k.val = t.val % 4 * 1024 + k.val; rw [e1]; omega

/-- Window 1's block at a point read off ANY array of the weight's shape: the point's contraction rows and output columns. -/
theorem blk1_read (A : Vec Ideal S4096x4096 .bf16) (t : Fin cfg0.N) (k q : Fin 1024)
    (hk : t.val % 4 * 1024 + k.val < 4096) (hq : t.val / 4 % 4 * 1024 + q.val < 4096) :
    ((cfg0.win 1).blk t).view.read (Elt Ideal) A (ix2 k q) = A (ix2 ⟨_, hk⟩ ⟨_, hq⟩) := by
  obtain ⟨-, -, e0, e1, -, -⟩ := idx_facts t
  rw [View.read_apply]
  refine congrArg A (funext fun a => Fin.ext ?_)
  match a with
  | ⟨0, _⟩ => show win0_1.index t (0 : Fin 2) * 1024 + 1 * k.val = t.val % 4 * 1024 + k.val; rw [e0]; omega
  | ⟨1, _⟩ => show win0_1.index t (1 : Fin 2) * 1024 + 1 * q.val = t.val / 4 % 4 * 1024 + q.val; rw [e1]; omega

/-- The activation block at a point is X on the point's rows and contraction columns. -/
theorem xblk_apply (c : Dev nD) (t : Fin cfg0.N) (p k : Fin 1024) :
    xblk m c t (ix2 p k) = xN m c (t.val / 16 * 1024 + p.val) (t.val % 4 * 1024 + k.val) := by
  have hN : t.val < 128 := lt_of_lt_of_eq t.isLt (show cfg0.N = 128 from N_0)
  have hp : t.val / 16 * 1024 + p.val < 8192 := by omega
  have hk : t.val % 4 * 1024 + k.val < 4096 := by omega
  unfold xN
  rw [dif_pos ⟨hp, hk⟩]
  exact blk0_read (xarr m c) t p k hp hk

/-- The weight block at a point is Wᵀ on the point's contraction rows and output columns. -/
theorem wblk_apply (c : Dev nD) (t : Fin cfg0.N) (k q : Fin 1024) :
    wblk m c t (ix2 k q) = wN m c (t.val % 4 * 1024 + k.val) (t.val / 4 % 4 * 1024 + q.val) := by
  have hN : t.val < 128 := lt_of_lt_of_eq t.isLt (show cfg0.N = 128 from N_0)
  have hk : t.val % 4 * 1024 + k.val < 4096 := by omega
  have hq : t.val / 4 % 4 * 1024 + q.val < 4096 := by omega
  unfold wN
  rw [dif_pos ⟨hk, hq⟩]
  exact blk1_read (warr m c) t k q hk hq

/-- The product of point n's two blocks at entry (p, q), over the arrays. -/
def blockSum (c : Dev nD) (n k : ℕ) (p q : Fin 1024) : EReal :=
  ∑ kk : Fin 1024, xN m c (n / 16 * 1024 + p.val) (k * 1024 + kk.val) * wN m c (k * 1024 + kk.val) (n / 4 % 4 * 1024 + q.val)

/-- What the accumulator holds after point n: the block products of the contraction blocks up to n's. -/
def acc (c : Dev nD) (n : ℕ) (p q : Fin 1024) : EReal := ∑ k ∈ Finset.range (n % 4 + 1), blockSum m c n k p q

/-- The step's product term at a point is the point's block product. -/
theorem step_sum (c : Dev nD) (t : Fin cfg0.N) (p q : Fin 1024) :
    ∑ k : Fin 1024, xblk m c t (ix2 p k) * wblk m c t (ix2 k q) = blockSum m c t.val (t.val % 4) p q := by
  unfold blockSum
  refine Finset.sum_congr rfl fun k _ => ?_
  rw [xblk_apply, wblk_apply]

/-- What each kind of point leaves in the accumulator, and the last kind in the output block. -/
theorem second_A (c : Dev nD) (t : Fin cfg0.N) (h0 : t.val % 4 = 0) (h1 : ¬t.val % 4 = 3) :
    (outsAt0 m c t.val t.isLt).2 = k0_pay2 (xblk m c t) (k0_pay1 (F := Ideal)) (wblk m c t) := by
  rw [outsAt0_A m c t h0 h1]
  dsimp only
  exact Pieces.sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem second_B (c : Dev nD) (t : Fin cfg0.N) (h0 : ¬t.val % 4 = 0) (h1 : ¬t.val % 4 = 3) :
    (outsAt0 m c t.val t.isLt).2
      = k0_pay2 (xblk m c t) (outsAt0 m c (t.val - 1) (Nat.lt_of_le_of_lt (Nat.sub_le _ _) t.isLt)).2 (wblk m c t) := by
  rw [outsAt0_B m c t h0 h1]
  dsimp only
  exact Pieces.sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

theorem second_C (c : Dev nD) (t : Fin cfg0.N) (h0 : ¬t.val % 4 = 0) (h1 : t.val % 4 = 3) :
    (outsAt0 m c t.val t.isLt).2
      = k0_pay2 (xblk m c t) (outsAt0 m c (t.val - 1) (Nat.lt_of_le_of_lt (Nat.sub_le _ _) t.isLt)).2 (wblk m c t) := by
  rw [outsAt0_C m c t h0 h1]
  dsimp only
  exact Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

theorem first_C (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

/-- THE INVARIANT: after point n the accumulator is the sum of the block products so far in n's run over k — by induction
    on the point. -/
theorem outsAt_acc (c : Dev nD) : ∀ (n : ℕ) (h : n < cfg0.N) (p q : Fin 1024), (outsAt0 m c n h).2 (ix2 p q) = acc m c n p q := by
  intro n
  induction n with
  | zero =>
    intro h p q
    have e := second_A m c ⟨0, h⟩ rfl (show ¬(0 : ℕ) % 4 = 3 by decide)
    rw [show (outsAt0 m c 0 h).2 = k0_pay2 (xblk m c ⟨0, h⟩) (k0_pay1 (F := Ideal)) (wblk m c ⟨0, h⟩) from e]
    refine (Payload.pay2_apply (xblk m c ⟨0, h⟩) _ (wblk m c ⟨0, h⟩) p q).trans ?_
    rw [Payload.pay1_apply, zero_add, step_sum]
    unfold acc
    simp only [Nat.zero_mod, zero_add, Finset.sum_range_one]
  | succ n ih =>
    intro h p q
    have hN : n + 1 < 128 := lt_of_lt_of_eq h (show cfg0.N = 128 from N_0)
    by_cases h0 : (n + 1) % 4 = 0
    · have h1 : ¬(n + 1) % 4 = 3 := by omega
      have e := second_A m c ⟨n + 1, h⟩ h0 h1
      rw [show (outsAt0 m c (n + 1) h).2 = k0_pay2 (xblk m c ⟨n + 1, h⟩) (k0_pay1 (F := Ideal)) (wblk m c ⟨n + 1, h⟩) from e]
      refine (Payload.pay2_apply (xblk m c ⟨n + 1, h⟩) _ (wblk m c ⟨n + 1, h⟩) p q).trans ?_
      rw [Payload.pay1_apply, zero_add, step_sum]
      unfold acc
      show blockSum m c (n + 1) ((n + 1) % 4) p q = _
      rw [h0]
      simp only [zero_add, Finset.sum_range_one]
    · have hprev : (outsAt0 m c (n + 1) h).2
          = k0_pay2 (xblk m c ⟨n + 1, h⟩) (outsAt0 m c n (Nat.lt_of_succ_lt h)).2 (wblk m c ⟨n + 1, h⟩) := by
        by_cases h1 : (n + 1) % 4 = 3
        · exact second_C m c ⟨n + 1, h⟩ h0 h1
        · exact second_B m c ⟨n + 1, h⟩ h0 h1
      rw [hprev]
      refine (Payload.pay2_apply (xblk m c ⟨n + 1, h⟩) _ (wblk m c ⟨n + 1, h⟩) p q).trans ?_
      rw [ih (Nat.lt_of_succ_lt h) p q, step_sum]
      unfold acc
      show _ + blockSum m c (n + 1) ((n + 1) % 4) p q = _
      have e4 : (n + 1) % 4 = n % 4 + 1 := by omega
      have e16 : (n + 1) / 16 = n / 16 := by omega
      have e44 : (n + 1) / 4 % 4 = n / 4 % 4 := by omega
      rw [e4]
      conv_rhs => rw [Finset.sum_range_succ]
      unfold blockSum
      rw [e16, e44]

/-- The whole row-by-column sum over the 4096 contraction indices. -/
def GN (c : Dev nD) (r o : ℕ) : EReal := ∑ i : Fin 4096, xN m c r i.val * wN m c i.val o

/-- At the last point of a run over k the four block products are the whole sum. -/
theorem acc_last (c : Dev nD) (n : ℕ) (h3 : n % 4 = 3) (p q : Fin 1024) :
    acc m c n p q = GN m c (n / 16 * 1024 + p.val) (n / 4 % 4 * 1024 + q.val) := by
  unfold acc blockSum GN
  rw [h3]
  exact Cert.ReferenceIdeal.RefRead.sum_blocks 4 1024
    (fun i => xN m c (n / 16 * 1024 + p.val) i * wN m c i (n / 4 % 4 * 1024 + q.val))

end Cert.KernelIdeal.Accum

end
-- ==== Proof.KFinal.lean ====
/-
  The kernel program's result array.

  Only the last point of each run over the contraction axis writes the output block back, and there the block holds the
  whole row-by-column sum (the accumulator's invariant). The 32 written blocks (8 row blocks × 4 column blocks) tile the
  8192 × 4096 output, so after the region entry (r, o) of the output is Σ_i X (r, i) · Wᵀ (i, o). The one host line after
  the region re-lays that array as [4, 2048, 4096]; the four argument buffers end as launched.
-/
import proofs.«117117_j56341380989458_1_alg».proof.Proof.KAccum
import Idealize.ShloMosaic.Lib.StableHlo.Run

set_option maxRecDepth 16384

noncomputable section

namespace Cert.KernelIdeal.Final

open Cert.KernelIdeal Cert.KernelIdeal.Gen Cert.KernelIdeal.Accum Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The output array after the region: entry (r, o) is the sum over the 4096 contraction indices. -/
def Gout (c : Dev nD) : Vec Ideal S8192x4096 .f32 := fun i => GN m c (i 0).val (i 1).val

/-- Window 2's block at a point read off ANY array of the output's shape: the point's rows and output columns. -/
theorem blk2_read (A : Vec Ideal S8192x4096 .f32) (t : Fin cfg0.N) (j : S1024x1024.Idx)
    (hp : t.val / 16 * 1024 + (j 0).val < 8192) (hq : t.val / 4 % 4 * 1024 + (j 1).val < 4096) :
    ((cfg0.win 2).blk t).view.read (Elt Ideal) A j = A (ix2 ⟨_, hp⟩ ⟨_, hq⟩) := by
  obtain ⟨-, -, -, -, e0, e1⟩ := idx_facts t
  rw [View.read_apply]
  refine congrArg A (funext fun a => Fin.ext ?_)
  match a with
  | ⟨0, _⟩ => show win0_2.index t (0 : Fin 2) * 1024 + 1 * (j 0).val = t.val / 16 * 1024 + (j 0).val; rw [e0]; omega
  | ⟨1, _⟩ => show win0_2.index t (1 : Fin 2) * 1024 + 1 * (j 1).val = t.val / 4 % 4 * 1024 + (j 1).val; rw [e1]; omega

/-- The accumulator's invariant at an index given by its coordinates. -/
theorem outsAt_acc' (c : Dev nD) (n : ℕ) (h : n < cfg0.N) (j : S1024x1024.Idx) :
    (outsAt0 m c n h).2 j = acc m c n (j 0) (j 1) :=
  (congrArg (outsAt0 m c n h).2 (eq_ix2 j)).trans (outsAt_acc m c n h (j 0) (j 1))

/-- At the last point of a run over the contraction axis the output block is its block of the whole sums. -/
theorem out_last (c : Dev nD) (t : Fin cfg0.N) (h0 : ¬t.val % 4 = 0) (h3 : t.val % 4 = 3) :
    (outsAt0 m c t.val t.isLt).1 = ((cfg0.win 2).blk t).view.read (Elt Ideal) (Gout m c) := by
  have hN : t.val < 128 := lt_of_lt_of_eq t.isLt (show cfg0.N = 128 from N_0)
  rw [first_C m c t h0 h3]
  funext j
  have hj0 : (j 0).val < 1024 := (j 0).isLt
  have hj1 : (j 1).val < 1024 := (j 1).isLt
  have hp : t.val / 16 * 1024 + (j 0).val < 8192 := by omega
  have hq : t.val / 4 % 4 * 1024 + (j 1).val < 4096 := by omega
  rw [outsAt_acc' m c t.val t.isLt j, acc_last m c t.val h3 (j 0) (j 1)]
  exact (blk2_read (Gout m c) t j hp hq).symm

/-- What a writing point writes back is its block of that array. -/
theorem flushed_eq (c : Dev nD) (t : Fin cfg0.N) (hf : (cfg0.win 2).flush t = true) :
    (dats m 0 c).flushed 2 t = ((cfg0.win 2).blk t).view.read (Elt Ideal) (Gout m c) := by
  have h3 : t.val % 4 = 3 := (flush0_2 t).mp hf
  have h0 : ¬t.val % 4 = 0 := by omega
  show (cfg0.win 2).cut (grid0.coords t) ((dats m 0 c).after 2 t) = _
  rw [after0_2]
  exact out_last m c t h0 h3
/-- An index of the output is in a point's block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v37).slice (win0_2.rect t)).set ↔ _
  rw [View.set_slice_whole, Rect.mem_set_unit]
  exact Iff.rfl

/-- Every entry of the output lies in the block some writing point writes: the last point of the run of its row block
    and column block. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hlt : ((i 0).val / 1024 * 4 + (i 1).val / 1024) * 4 + 3 < cfg0.N := by rw [show cfg0.N = 128 from N_0]; omega
  obtain ⟨-, -, -, -, e0, e1⟩ := idx_facts ⟨_, hlt⟩
  refine ⟨⟨_, hlt⟩, (flush0_2 _).mpr (by show (((i 0).val / 1024 * 4 + (i 1).val / 1024) * 4 + 3) % 4 = 3; omega), ?_⟩
  rw [mem_blk]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [e0]; dsimp only; omega
  | ⟨1, _⟩ =>
    show win0_2.index ⟨_, hlt⟩ (1 : Fin 2) * 1024 ≤ (i 1).val ∧ (i 1).val < win0_2.index ⟨_, hlt⟩ (1 : Fin 2) * 1024 + 1024
    rw [e1]; dsimp only; omega

/-- So the output array ends at that function. -/
theorem final (c : Dev nD) : (dats m 0 c).arrAt 2 cfg0.N = Gout m c :=
  (dats m 0 c).arrAt_eq_of_cover 2 (Gout m c) (flushed_eq m c) (cover)

/-- The host line after the region re-lays the output array. -/
theorem tail_v38 (c : Dev nD) :
    Pipeline.afterTail₀ cfgs (dats m) 0 (V0 m) [hostOps1] c main_v38
      = shapeCast S4x2048x4096 (Gout m c) shapeCasts_S8192x4096_S4x2048x4096 := by
  unfold Pipeline.afterTail₀
  show StableHlo.after hostOps1 _ (Proc.devRef .tc main_v38) = _
  after_results
  rw [show Pipeline.withArrays (cfgs 0).spec c (V0 m c) (fun w => (dats m 0 c).arrAt w (cfgs 0).N) (Proc.tc.devRef main_v37) = Gout m c from
    (Pipeline.withArrays_arr spec0 launch0.win.arr_inj c (V0 m c) (fun w => (dats m 0 c).arrAt w cfg0.N) 2).trans (final m c)]
  rfl

/-- THE RUN, READ: every weakly fair execution of the kernel program terminates with its result buffer at the re-laid
    array of whole sums and its four arguments as launched. -/
theorem run : θ_run defs (onTc (τ := τ) (main (F := Ideal))) ⟨m, fun _ => 0, ρ⟩ fun r => ∀ c : Dev nD,
      r.2.mem ((c.tc : Thread nD τ).loc main_v38) = shapeCast S4x2048x4096 (Gout m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v38 (Pipeline.mem_restRefs_of main_v38 (by decide) (by decide))).trans (tail_v38 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.KHost.lean ====
/-
  What the kernel's region finds in its two input arrays.

  Before the region the kernel program flattens the activations x : [4, 2048, 4096] to X : [8192, 4096] (row b·2048 + s
  of X is row (b, s) of x), and transposes the dense weight W : [4096, 4096] and narrows it to bf16: Wᵀ (i, o) = W (o, i),
  the narrowing being the identity on the extended reals. Both facts are read off the host lines one operation at a
  time; the weight itself is left as the fold of the lines that build it.
-/
import proofs.«117117_j56341380989458_1_alg».proof.Proof.Gen.KernelIdeal.Frame.Runs
import Idealize.ShloMosaic.Lib.Pipeline.Value
import Idealize.ShloMosaic.Lib.ValueIdx
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

set_option maxHeartbeats 1000000 in
/-- The flattened activations are the first argument re-laid row-major. -/
theorem V_v36 (c : Dev nD) :
    (V m c main_v36 : Vec F S8192x4096 .f32)
      = shapeCast S8192x4096 (m ((c : Thread nD τ).loc main_arg0)) shapeCasts_S4x2048x4096_S8192x4096 := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  rfl

set_option maxHeartbeats 2000000 in
/-- The region's second array is the dense weight transposed and narrowed. -/
theorem V_v35 (c : Dev nD) :
    (V m c main_v35 : Vec F S4096x4096 .bf16)
      = truncf .bf16 (transpose S4096x4096 [1, 0] (V m c main_v33 : Vec F S4096x4096 .f32) transposes_S4096x4096_S4096x4096_1_0) bitsLt_bf16_f32 := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp

/-- Row b·2048 + s of the flattened activations is row (b, s) of the first argument. -/
theorem xflat_apply (c : Dev nD) (b : Fin 4) (s : Fin 2048) (i : Fin 4096) (h : b.val * 2048 + s.val < 8192) :
    (V m c main_v36 : Vec F S8192x4096 .f32) (ix2 ⟨b.val * 2048 + s.val, h⟩ i)
      = m ((c : Thread nD τ).loc main_arg0) (ix3 b s i) := by
  rw [V_v36]
  exact shapeCast_apply _ _ _ (ix3 b s i) (by
    rw [Shape.rowMajor_val_three, Shape.rowMajor_val_two]
    rfl)

/-- The narrowed transposed weight at (i, o) is the dense weight at (o, i), on the extended reals. -/
theorem wt_apply (mI : (ℓ : Loc nD τ sig) → Buf (Elt Ideal) ℓ) (c : Dev nD) (i o : Fin 4096) :
    (V mI c main_v35 : Vec Ideal S4096x4096 .bf16) (ix2 i o) = (V mI c main_v33 : Vec Ideal S4096x4096 .f32) (ix2 o i) := by
  rw [V_v35]
  rw [truncf_apply]
  exact transpose_apply _ _ _ _ (ix2 o i) fun b => match b with | ⟨0, _⟩ => rfl | ⟨1, _⟩ => rfl

end Cert.KernelIdeal.HostSide

end
-- ==== Proof.WeightBridge.lean ====
/-
  The dense weight is one function of the CSR arrays in both programs.

  Both programs build the weight W from (values, row offsets, column indices) by the same 75 host operations: the row
  lengths as differences of the offsets, every nonzero's row id from a cumulative sum of marks at the row starts read
  through a take, the wrapped (row, column) pairs, and the scatter-add of the values into the zero matrix. The kernel
  program then transposes and narrows it before its region; the reference contracts with it directly. Here: what the
  kernel's region finds in the weight's buffer is what the reference's first 75 operations leave in theirs, whenever the
  two launches agree on the three CSR arguments. Each side is read operation by operation down to the arguments; the two
  terms are then the same term.
-/
import proofs.«117117_j56341380989458_1_alg».proof.Proof.Gen.KernelIdeal.Frame.Runs
import proofs.«117117_j56341380989458_1_alg».proof.Proof.RefRun

noncomputable section

namespace Cert.WeightBridge

open Idealize.ShloMosaic Idealize.ShloMosaic.TcCoe Idealize.SL.Sem
open Idealize.ShloMosaic.StableHlo

variable {F : FTy → Type} [FloatOps F]

/-- Two arrays joined along an axis, as a plain function of the two (so that each can be rewritten in place). -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem cat2_def {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

set_option maxHeartbeats 2000000 in
set_option maxRecDepth 16384 in
/-- From contents agreeing on values, offsets and column indices, the kernel program's host lines before its region leave
    in the weight's buffer what the reference's first 75 operations leave in theirs. -/
theorem weight_eq_of (W : Valuation Cert.KernelIdeal.τ Cert.KernelIdeal.sig (Elt F)) (W' : Valuation Cert.ReferenceIdeal.τ Cert.ReferenceIdeal.sig (Elt F))
    (h1 : W (Cert.KernelIdeal.main_arg1 : DevRef Cert.KernelIdeal.τ Cert.KernelIdeal.sig) = W' (Cert.ReferenceIdeal.main_arg1 : DevRef Cert.ReferenceIdeal.τ Cert.ReferenceIdeal.sig))
    (h2 : W (Cert.KernelIdeal.main_arg2 : DevRef Cert.KernelIdeal.τ Cert.KernelIdeal.sig) = W' (Cert.ReferenceIdeal.main_arg2 : DevRef Cert.ReferenceIdeal.τ Cert.ReferenceIdeal.sig))
    (h3 : W (Cert.KernelIdeal.main_arg3 : DevRef Cert.KernelIdeal.τ Cert.KernelIdeal.sig) = W' (Cert.ReferenceIdeal.main_arg3 : DevRef Cert.ReferenceIdeal.τ Cert.ReferenceIdeal.sig)) :
    after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9]) W (Cert.KernelIdeal.main_v33 : DevRef Cert.KernelIdeal.τ Cert.KernelIdeal.sig)
      = Cert.ReferenceIdeal.HandRun.weight W' := by
  unfold Cert.ReferenceIdeal.HandRun.weight
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9,
    Cert.ReferenceIdeal.HandRun.opsW, List.flatten_cons, List.flatten_nil, List.append_nil, List.cons_append, List.nil_append]
  simp (disch := decide) only [after_cons, after_nil, cat2_def,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [h1, h2, h3]
  rfl

/-- The same at the two launches' memories: what the kernel's region finds in the weight's buffer. -/
theorem weight_eq (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.Gen.V m c Cert.KernelIdeal.main_v33 = Cert.ReferenceIdeal.HandRun.weight (launchContents m' c) :=
  weight_eq_of (fun b => m (c, b)) (launchContents m' c) h1.symm h2.symm h3.symm

end Cert.WeightBridge

end
-- ==== Proof.Equal.lean ====
/-
  The two results are one array.

  Entry (b, s, o) of the kernel program's result is entry (b·2048 + s, o) of its output array, the sum over i of
  X (b·2048 + s, i) · Wᵀ (i, o) = x (b, s, i) · W (o, i). Entry (b, s, o) of the reference's contraction is the sum over i
  of x' (b, s, i) · W' (o, i). With the launches agreeing on the arguments, x = x' and W = W' (the weight is one function
  of the CSR arrays in both programs), so the sums agree term by term: only the grouping of the kernel's sum into four
  blocks differed, and addition of extended reals is associative and commutative.
-/
import proofs.«117117_j56341380989458_1_alg».proof.Proof.KFinal
import proofs.«117117_j56341380989458_1_alg».proof.Proof.KHost
import proofs.«117117_j56341380989458_1_alg».proof.Proof.WeightBridge
import proofs.«117117_j56341380989458_1_alg».proof.Proof.RefRead

set_option maxRecDepth 16384

noncomputable section

namespace Cert.Equal

open Idealize.ShloMosaic Idealize.ShloMosaic.TcCoe Idealize.SL.Sem Idealize.ShloMosaic.ValueIdx
open Idealize.ShloMosaic.StableHlo

/-- The activations as launched, on either side, and the dense weight as the kernel's region finds it, at their literal types. -/
abbrev xK (m : (ℓ : Loc Cert.KernelIdeal.nD Cert.KernelIdeal.τ Cert.KernelIdeal.sig) → Buf (Elt Ideal) ℓ) (c : Dev Cert.KernelIdeal.nD) : Vec Ideal Cert.KernelIdeal.S4x2048x4096 .f32 :=
  m ((c.tc : Thread Cert.KernelIdeal.nD Cert.KernelIdeal.τ).loc Cert.KernelIdeal.main_arg0)
abbrev wK (m : (ℓ : Loc Cert.KernelIdeal.nD Cert.KernelIdeal.τ Cert.KernelIdeal.sig) → Buf (Elt Ideal) ℓ) (c : Dev Cert.KernelIdeal.nD) : Vec Ideal Cert.KernelIdeal.S4096x4096 .f32 :=
  Cert.KernelIdeal.Gen.V m c Cert.KernelIdeal.main_v33
abbrev xR (m' : (ℓ : Loc Cert.ReferenceIdeal.nD Cert.ReferenceIdeal.τ Cert.ReferenceIdeal.sig) → Buf (Elt Ideal) ℓ) (c : Dev Cert.ReferenceIdeal.nD) : Vec Ideal Cert.ReferenceIdeal.S4x2048x4096 .f32 :=
  m' ((c.tc : Thread Cert.ReferenceIdeal.nD Cert.ReferenceIdeal.τ).loc Cert.ReferenceIdeal.main_arg0)

/-- The two arrays at in-range natural coordinates. -/
theorem xN_of (m : (ℓ : Loc Cert.KernelIdeal.nD Cert.KernelIdeal.τ Cert.KernelIdeal.sig) → Buf (Elt Ideal) ℓ) (c : Dev Cert.KernelIdeal.nD) (r i : ℕ) (h : r < 8192 ∧ i < 4096) :
    Cert.KernelIdeal.Accum.xN m c r i = Cert.KernelIdeal.Accum.xarr m c (ix2 ⟨r, h.1⟩ ⟨i, h.2⟩) := dif_pos h
theorem wN_of (m : (ℓ : Loc Cert.KernelIdeal.nD Cert.KernelIdeal.τ Cert.KernelIdeal.sig) → Buf (Elt Ideal) ℓ) (c : Dev Cert.KernelIdeal.nD) (i o : ℕ) (h : i < 4096 ∧ o < 4096) :
    Cert.KernelIdeal.Accum.wN m c i o = Cert.KernelIdeal.Accum.warr m c (ix2 ⟨i, h.1⟩ ⟨o, h.2⟩) := dif_pos h

/-- The kernel program's result at an entry, over the first argument and the dense weight as its region finds it. -/
theorem kernel_entry (m : (ℓ : Loc Cert.KernelIdeal.nD Cert.KernelIdeal.τ Cert.KernelIdeal.sig) → Buf (Elt Ideal) ℓ) (c : Dev Cert.KernelIdeal.nD)
    (b : Fin 4) (s : Fin 2048) (o : Fin 4096) :
    shapeCast Cert.KernelIdeal.S4x2048x4096 (Cert.KernelIdeal.Final.Gout m c) Cert.KernelIdeal.Gen.shapeCasts_S8192x4096_S4x2048x4096 (ix3 b s o)
      = ∑ i : Fin 4096, xK m c (ix3 b s i) * wK m c (ix2 o i) := by
  have hr : b.val * 2048 + s.val < 8192 := by omega
  rw [shapeCast_apply _ _ (ix3 b s o) (ix2 ⟨b.val * 2048 + s.val, hr⟩ o) (by
    rw [Shape.rowMajor_val_two, Shape.rowMajor_val_three]; rfl)]
  show Cert.KernelIdeal.Accum.GN m c (b.val * 2048 + s.val) o.val = _
  unfold Cert.KernelIdeal.Accum.GN
  refine Finset.sum_congr rfl fun i _ => ?_
  rw [xN_of m c _ _ ⟨hr, i.isLt⟩, wN_of m c _ _ ⟨i.isLt, o.isLt⟩]
  exact congrArg₂ (· * ·) (Cert.KernelIdeal.HostSide.xflat_apply m c b s i hr) (Cert.KernelIdeal.HostSide.wt_apply m c i o)

/-- From launches agreeing on the four arguments, the reference's contraction is the kernel program's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Host.dotGeneral (φ₁ := .f32) (φ₂ := .f32) Cert.ReferenceIdeal.dot_S4x2048x4096_S4096x4096_S4x2048x4096_2_1_01_0_n_n none
        (xR m' c) (Cert.ReferenceIdeal.HandRun.weight (launchContents m' c))
      = shapeCast Cert.KernelIdeal.S4x2048x4096 (Cert.KernelIdeal.Final.Gout m c) Cert.KernelIdeal.Gen.shapeCasts_S8192x4096_S4x2048x4096 := by
  funext j
  obtain ⟨b, s, o, rfl⟩ : ∃ (b : Fin 4) (s : Fin 2048) (o : Fin 4096), j = ix3 b s o := ⟨j 0, j 1, j 2, eq_ix3 j⟩
  refine (Cert.ReferenceIdeal.RefRead.dot_apply _ _ b s o).trans ?_
  refine Eq.trans ?_ (kernel_entry m c b s o).symm
  refine Finset.sum_congr rfl fun i _ => ?_
  exact congrArg₂ (· * ·) (congrFun h0 (ix3 b s i)) (congrFun (Cert.WeightBridge.weight_eq m m' c h1 h2 h3) (ix2 o i)).symm

end Cert.Equal

end
-- ==== Proof.lean ====
/-
  The certificate: a sparse linear layer as a dense matrix product.

  Both programs build the dense weight W (4096 × 4096) from a CSR triple (values, row offsets, column indices) by the same
  host operations and multiply the activations x : [4, 2048, 4096] by Wᵀ. The reference does it in one contraction,
  y (b, s, o) = Σ_i x (b, s, i) · W (o, i). The kernel program flattens x to 8192 × 4096, transposes W and narrows it to
  bf16 (the identity on the extended reals), and runs a grid of 8 × 4 × 4 points that accumulates, over the innermost
  axis, four 1024-wide block products into a carried accumulator, writing each output block once, after the fourth.
  On the extended reals the four block sums are the whole sum, so the two results are equal entry by entry; no
  finiteness of the inputs is used.

  The three frames: the kernel programs' are the generated ones; the reference is a straight line of host operations,
  run by hand. The ideal pass rewrote nothing, so the kernel's idealization is its own text read on the extended reals.
-/
import proofs.«117117_j56341380989458_1_alg».proof.Defs
import proofs.«117117_j56341380989458_1_alg».proof.Proof.Gen.Kernel
import proofs.«117117_j56341380989458_1_alg».proof.Proof.Gen.Kernel.Frame
import proofs.«117117_j56341380989458_1_alg».proof.Proof.Gen.KernelIdeal
import proofs.«117117_j56341380989458_1_alg».proof.Proof.Gen.KernelIdeal.Frame
import proofs.«117117_j56341380989458_1_alg».proof.Proof.Gen.ReferenceIdeal
import proofs.«117117_j56341380989458_1_alg».proof.Proof.Gen.Pre_finite_inputs
import proofs.«117117_j56341380989458_1_alg».proof.Proof.RefRun
import proofs.«117117_j56341380989458_1_alg».proof.Proof.KFinal
import proofs.«117117_j56341380989458_1_alg».proof.Proof.Equal
import Idealize.ShloMosaic.Adequacy
import Idealize.ShloMosaic.Init

noncomputable section

namespace Cert.Proof

open Idealize.ShloMosaic Idealize.SL.Sem

/-- The kernel program at the word level runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Both idealized programs end with the same array: the kernel program's re-laid array of whole sums. -/
theorem algebraic : Cert.algebraic_KernelIdeal_ReferenceIdeal := by
  intro m ρ m' ρ' _ hagree
  refine ⟨fun c => shapeCast Cert.KernelIdeal.S4x2048x4096 (Cert.KernelIdeal.Final.Gout m c)
    Cert.KernelIdeal.Gen.shapeCasts_S8192x4096_S4x2048x4096, Cert.KernelIdeal.Final.run m ρ, ?_⟩
  refine (θ_run Cert.ReferenceIdeal.defs _ _).mono (fun _ h c => ⟨(h c).1.trans ?_, (h c).2⟩)
    (Cert.ReferenceIdeal.HandRun.run (F := Ideal) m' ρ')
  exact Cert.Equal.result_eq m m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
